-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S2x524288 : Shape := ⟨2, ![2, 524288]⟩
abbrev S256x256 : Shape := ⟨2, ![256, 256]⟩
abbrev S256 : Shape := ⟨1, ![256]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S2x524288 : S_.BroadcastsInDim S2x524288 (![] : Fin 0 → Fin S2x524288.rank)
  reducesTo_S2x524288_S_d0_1 : S2x524288.ReducesTo [0, 1] S_

variable [Facts]

def fn_part2 {F : FTy → Type} [FloatOps F] (main_arg1 : IVec S2x524288 32) (main_arg8 : FVec F S512x128 .f32) (main_arg9 : FVec F S128 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x524288 32 := broadcastInDim S2x524288 ![] bcast_S_S2x524288 main_c_16
  let main_v45 : IVec S2x524288 1 := cmpi .sge main_arg1 main_v44
  let main_c_17 : IVec S_ 32 := constantI S_ 32 32768#32
  let main_v46 : IVec S2x524288 32 := broadcastInDim S2x524288 ![] bcast_S_S2x524288 main_c_17
  let main_v47 : IVec S2x524288 1 := cmpi .slt main_arg1 main_v46
  let main_v48 : IVec S2x524288 1 := andi main_v45 main_v47
  let main_c_18 : IVec S_ 1 := constantI S_ 1 1#1
  let main_v49 : IVec S_ 1 := (fun x v => Host.reduce IntOp.andi x v reducesTo_S2x524288_S_d0_1 h_S_) main_v48 main_c_18
  let main_v50 : IVec S_ 1 := andi main_v43 main_v49
  main_v50

def fn_part1 {F : FTy → Type} [FloatOps F] (main_arg1 : IVec S2x524288 32) (main_arg5 : FVec F S256 .f32) (main_arg6 : FVec F S512x512 .f32) (main_arg7 : FVec F S512 .f32) (main_arg8 : FVec F S512x128 .f32) (main_arg9 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_v33

def fn {F : FTy → Type} [FloatOps F] (main_arg0 : FVec F S32768x128 .f32) (main_arg1 : IVec S2x524288 32) (main_arg2 : FVec F S256x256 .f32) (main_arg3 : FVec F S256 .f32) (main_arg4 : FVec F S256x256 .f32) (main_arg5 : FVec F S256 .f32) (main_arg6 : FVec F S512x512 .f32) (main_arg7 : FVec F S512 .f32) (main_arg8 : FVec F S512x128 .f32) (main_arg9 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_v13 main_v16
-- ==== Kernel.lean ====
abbrev S32768x128 : Shape := ⟨2, ![32768, 128]⟩
abbrev S2x524288 : Shape := ⟨2, ![2, 524288]⟩
abbrev S256x256 : Shape := ⟨2, ![256, 256]⟩
abbrev S256 : Shape := ⟨1, ![256]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S524288x128 : Shape := ⟨2, ![524288, 128]⟩
abbrev S128x256 : Shape := ⟨2, ![128, 256]⟩
abbrev S1x256 : Shape := ⟨2, ![1, 256]⟩
abbrev S524288x256 : Shape := ⟨2, ![524288, 256]⟩
abbrev S4096x128 : Shape := ⟨2, ![4096, 128]⟩
abbrev S4096x256 : Shape := ⟨2, ![4096, 256]⟩
abbrev S32768x256 : Shape := ⟨2, ![32768, 256]⟩
abbrev S32x2x512x128 : Shape := ⟨4, ![32, 2, 512, 128]⟩
abbrev S32x1x512x128 : Shape := ⟨4, ![32, 1, 512, 128]⟩
abbrev S32x512x128 : Shape := ⟨3, ![32, 512, 128]⟩
abbrev S32x512 : Shape := ⟨2, ![32, 512]⟩
abbrev S32x512x1 : Shape := ⟨3, ![32, 512, 1]⟩
abbrev S32x512x512 : Shape := ⟨3, ![32, 512, 512]⟩
abbrev S128x512 : Shape := ⟨2, ![128, 512]⟩
abbrev S256x512 : Shape := ⟨2, ![256, 512]⟩
abbrev S1x512 : Shape := ⟨2, ![1, 512]⟩
abbrev S1x128 : Shape := ⟨2, ![1, 128]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 138
  | .vmem => 25
  | .smem => 0
  | _ => 0

abbrev hbmTy0_0 (i : Nat) : BufTy := match i % 128 with
  | 0 => ⟨S32768x128, .f32⟩
  | 1 => ⟨S2x524288, .i32⟩
  | 2 => ⟨S256x256, .f32⟩
  | 3 => ⟨S256, .f32⟩
  | 4 => ⟨S256x256, .f32⟩
  | 5 => ⟨S256, .f32⟩
  | 6 => ⟨S512x512, .f32⟩
  | 7 => ⟨S512, .f32⟩
  | 8 => ⟨S512x128, .f32⟩
  | 9 => ⟨S128, .f32⟩
  | 10 => ⟨S1x524288, .i32⟩
  | 11 => ⟨S524288, .i32⟩
  | 12 => ⟨S1x524288, .i32⟩
  | 13 => ⟨S524288, .i32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S524288x1, .i32⟩
  | 22 => ⟨S1, .i32⟩
  | 23 => ⟨S_, .i32⟩
  | 24 => ⟨S524288x1, .i32⟩
  | 25 => ⟨S524288x1, .i1⟩
  | 26 => ⟨S1x1, .i32⟩
  | 27 => ⟨S524288x1, .i32⟩
  | 28 => ⟨S524288x1, .i1⟩
  | 29 => ⟨S524288x1, .i1⟩
  | 30 => ⟨S_, .i1⟩
  | 31 => ⟨S524288, .i1⟩
  | 32 => ⟨S524288x128, .f32⟩
  | 33 => ⟨S524288x128, .i1⟩
  | 34 => ⟨S_, .f32⟩
  | 35 => ⟨S524288x128, .f32⟩
  | 36 => ⟨S524288x128, .f32⟩
  | 37 => ⟨S_, .i32⟩
  | 38 => ⟨S524288, .i32⟩
  | 39 => ⟨S524288, .i1⟩
  | 40 => ⟨S_, .i32⟩
  | 41 => ⟨S524288, .i32⟩
  | 42 => ⟨S524288, .i32⟩
  | 43 => ⟨S524288, .i32⟩
  | 44 => ⟨S524288x1, .i32⟩
  | 45 => ⟨S1, .i32⟩
  | 46 => ⟨S_, .i32⟩
  | 47 => ⟨S524288x1, .i32⟩
  | 48 => ⟨S524288x1, .i1⟩
  | 49 => ⟨S1x1, .i32⟩
  | 50 => ⟨S524288x1, .i32⟩
  | 51 => ⟨S524288x1, .i1⟩
  | 52 => ⟨S524288x1, .i1⟩
  | 53 => ⟨S_, .i1⟩
  | 54 => ⟨S524288, .i1⟩
  | 55 => ⟨S524288x128, .f32⟩
  | 56 => ⟨S524288x128, .i1⟩
  | 57 => ⟨S_, .f32⟩
  | 58 => ⟨S524288x128, .f32⟩
  | 59 => ⟨S524288x128, .f32⟩
  | 60 => ⟨S128x256, .f32⟩
  | 61 => ⟨S128x256, .f32⟩
  | 62 => ⟨S1x256, .f32⟩
  | 63 => ⟨S1x256, .f32⟩
  | 64 => ⟨S524288x256, .f32⟩
  | 65 => ⟨S_, .f32⟩
  | 66 => ⟨S32768x256, .f32⟩
  | 67 => ⟨S524288x1, .i32⟩
  | 68 => ⟨S32768x256, .f32⟩
  | 69 => ⟨S32x2x512x128, .f32⟩
  | 70 => ⟨S32x1x512x128, .f32⟩
  | 71 => ⟨S32x512x128, .f32⟩
  | 72 => ⟨S32x1x512x128, .f32⟩
  | 73 => ⟨S32x512x128, .f32⟩
  | 74 => ⟨S32x512x128, .f32⟩
  | 75 => ⟨S_, .f32⟩
  | 76 => ⟨S32x512, .f32⟩
  | 77 => ⟨S32x512x1, .f32⟩
  | 78 => ⟨S32x512x1, .f32⟩
  | 79 => ⟨S_, .f32⟩
  | 80 => ⟨S32x512x1, .f32⟩
  | 81 => ⟨S32x512x1, .f32⟩
  | 82 => ⟨S32x512x128, .f32⟩
  | 83 => ⟨S32x512x128, .f32⟩
  | 84 => ⟨S32x512x128, .f32⟩
  | 85 => ⟨S_, .f32⟩
  | 86 => ⟨S32x512, .f32⟩
  | 87 => ⟨S32x512x1, .f32⟩
  | 88 => ⟨S32x512x1, .f32⟩
  | 89 => ⟨S_, .f32⟩
  | 90 => ⟨S32x512x1, .f32⟩
  | 91 => ⟨S32x512x1, .f32⟩
  | 92 => ⟨S32x512x128, .f32⟩
  | 93 => ⟨S32x512x128, .f32⟩
  | 94 => ⟨S32x512x512, .f32⟩
  | 95 => ⟨S_, .f32⟩
  | 96 => ⟨S32x512, .f32⟩
  | 97 => ⟨S_, .f32⟩
  | 98 => ⟨S32x512, .f32⟩
  | 99 => ⟨S32x512, .f32⟩
  | 100 => ⟨S32x512x1, .f32⟩
  | 101 => ⟨S32x512x512, .f32⟩
  | 102 => ⟨S32x512x512, .f32⟩
  | 103 => ⟨S32x512x512, .f32⟩
  | 104 => ⟨S_, .f32⟩
  | 105 => ⟨S32x512, .f32⟩
  | 106 => ⟨S32x512x1, .f32⟩
  | 107 => ⟨S32x512x512, .f32⟩
  | 108 => ⟨S32x512x512, .f32⟩
  | 109 => ⟨S32x512x512, .f32⟩
  | 110 => ⟨S_, .f32⟩
  | 111 => ⟨S32x512, .f32⟩
  | 112 => ⟨S_, .f32⟩
  | 113 => ⟨S32x512, .f32⟩
  | 114 => ⟨S32x512, .f32⟩
  | 115 => ⟨S32x512x1, .f32⟩
  | 116 => ⟨S32x512x512, .f32⟩
  | 117 => ⟨S32x512x512, .f32⟩
  | 118 => ⟨S32x512x512, .f32⟩
  | 119 => ⟨S_, .f32⟩
  | 120 => ⟨S32x512, .f32⟩
  | 121 => ⟨S32x512x1, .f32⟩
  | 122 => ⟨S32x512x512, .f32⟩
  | 123 => ⟨S32x512x512, .f32⟩
  | 124 => ⟨S32x512x128, .f32⟩
  | 125 => ⟨S32x512x128, .f32⟩
  | 126 => ⟨S32x512x128, .f32⟩
  | 127 => ⟨S32x512x128, .f32⟩
  | _ => ⟨S32768x128, .f32⟩

abbrev hbmTy0_1 (i : Nat) : BufTy := match i % 128 with
  | 0 => ⟨S32x1x512x128, .f32⟩
  | 1 => ⟨S32x1x512x128, .f32⟩
  | 2 => ⟨S32x2x512x128, .f32⟩
  | 3 => ⟨S32768x128, .f32⟩
  | 4 => ⟨S128x512, .f32⟩
  | 5 => ⟨S256x512, .f32⟩
  | 6 => ⟨S128x512, .f32⟩
  | 7 => ⟨S1x512, .f32⟩
  | 8 => ⟨S1x128, .f32⟩
  | 9 => ⟨S32768x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S4096x256, .f32⟩
  | .local _ .vmem, ⟨10, _⟩ => ⟨S4096x256, .f32⟩
  | .local _ .vmem, ⟨11, _⟩ => ⟨S2048x128, .f32⟩
  | .local _ .vmem, ⟨12, _⟩ => ⟨S2048x128, .f32⟩
  | .local _ .vmem, ⟨13, _⟩ => ⟨S2048x256, .f32⟩
  | .local _ .vmem, ⟨14, _⟩ => ⟨S2048x256, .f32⟩
  | .local _ .vmem, ⟨15, _⟩ => ⟨S2048x128, .f32⟩
  | .local _ .vmem, ⟨16, _⟩ => ⟨S2048x128, .f32⟩
  | .local _ .vmem, ⟨17, _⟩ => ⟨S128x512, .f32⟩
  | .local _ .vmem, ⟨18, _⟩ => ⟨S256x512, .f32⟩
  | .local _ .vmem, ⟨19, _⟩ => ⟨S128x512, .f32⟩
  | .local _ .vmem, ⟨20, _⟩ => ⟨S1x512, .f32⟩
  | .local _ .vmem, ⟨21, _⟩ => ⟨S512x128, .f32⟩
  | .local _ .vmem, ⟨22, _⟩ => ⟨S1x128, .f32⟩
  | .local _ .vmem, ⟨23, _⟩ => ⟨S2048x128, .f32⟩
  | .local _ .vmem, ⟨24, _⟩ => ⟨S2048x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_cst : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_call2_v0 : Ref sig .tc := ⟨.hbm, 74, rfl⟩
abbrev main_call2_cst : Ref sig .tc := ⟨.hbm, 75, rfl⟩
abbrev main_call2_v1 : Ref sig .tc := ⟨.hbm, 76, rfl⟩
abbrev main_call2_v2 : Ref sig .tc := ⟨.hbm, 77, rfl⟩
abbrev main_v19 : Ref sig .tc := ⟨.hbm, 78, rfl⟩
abbrev main_cst_0 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_call3_v0 : Ref sig .tc := ⟨.hbm, 84, rfl⟩
abbrev main_call3_cst : Ref sig .tc := ⟨.hbm, 85, rfl⟩
abbrev main_call3_v1 : Ref sig .tc := ⟨.hbm, 86, rfl⟩
abbrev main_call3_v2 : Ref sig .tc := ⟨.hbm, 87, rfl⟩
abbrev main_v24 : Ref sig .tc := ⟨.hbm, 88, rfl⟩
abbrev main_cst_1 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_2 : Ref sig .tc := ⟨.hbm, 95, rfl⟩
abbrev main_v30 : Ref sig .tc := ⟨.hbm, 96, rfl⟩
abbrev main_cst_3 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_cst_4 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_cst_5 : Ref sig .tc := ⟨.hbm, 110, rfl⟩
abbrev main_v42 : Ref sig .tc := ⟨.hbm, 111, rfl⟩
abbrev main_cst_6 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_cst_7 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x128_0 : S524288.BroadcastsInDim S524288x128 (![0] : Fin 1 → Fin S524288x128.rank)
  bcast_S_S524288x128 : S_.BroadcastsInDim S524288x128 (![] : Fin 0 → Fin S524288x128.rank)
  slices_S256x256_S128x256_0_0 : S256x256.Slices ![0, 0] S128x256
  slices_S256x256_S128x256_128_0 : S256x256.Slices ![128, 0] S128x256
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  inb_S4096x256_S4096x256_0_0 : ∀ a, (![0, 0] : Fin 2 → Nat) a + S4096x256.size a ≤ S4096x256.size a
  h_S4096x256 : 0 < S4096x256.numel
  bcast_S_S32768x256 : S_.BroadcastsInDim S32768x256 (![] : Fin 0 → Fin S32768x256.rank)
  shapeCasts_S32768x128_S32x2x512x128 : S32768x128.ShapeCasts S32x2x512x128
  slices_S32x2x512x128_S32x1x512x128_0_0_0_0 : S32x2x512x128.Slices ![0, 0, 0, 0] S32x1x512x128
  shapeCasts_S32x1x512x128_S32x512x128 : S32x1x512x128.ShapeCasts S32x512x128
  slices_S32x2x512x128_S32x1x512x128_0_1_0_0 : S32x2x512x128.Slices ![0, 1, 0, 0] S32x1x512x128
  reducesTo_S32x512x128_S32x512_d2 : S32x512x128.ReducesTo [2] S32x512
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S32x512x1_S32x512x128_0_1_2 : S32x512x1.BroadcastsInDim S32x512x128 (![0, 1, 2] : Fin 3 → Fin S32x512x128.rank)
  reducesTo_S32x512x512_S32x512_d2 : S32x512x512.ReducesTo [2] S32x512
  bcast_S_S32x512 : S_.BroadcastsInDim S32x512 (![] : Fin 0 → Fin S32x512.rank)
  bcast_S32x512x1_S32x512x512_0_1_2 : S32x512x1.BroadcastsInDim S32x512x512 (![0, 1, 2] : Fin 3 → Fin S32x512x512.rank)
  transposes_S32x512x512_S32x512x512_0_2_1 : S32x512x512.Transposes [0, 2, 1] S32x512x512
  bcast_S32x512x128_S32x1x512x128_0_2_3 : S32x512x128.BroadcastsInDim S32x1x512x128 (![0, 2, 3] : Fin 3 → Fin S32x1x512x128.rank)
  concatenates_S32x1x512x128_S32x1x512x128_S32x2x512x128_d1 : Shape.Concatenates [S32x1x512x128, S32x1x512x128] S32x2x512x128 1
  shapeCasts_S32x2x512x128_S32768x128 : S32x2x512x128.ShapeCasts S32768x128
  slices_S512x512_S128x512_0_0 : S512x512.Slices ![0, 0] S128x512
  slices_S512x512_S256x512_128_0 : S512x512.Slices ![128, 0] S256x512
  slices_S512x512_S128x512_384_0 : S512x512.Slices ![384, 0] S128x512
  shapeCasts_S512_S1x512 : S512.ShapeCasts S1x512
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x128_S2048x128 : S2048x128.ShapeCasts S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  gather_S32768x128_S524288x1_S524288x128_1_0_n_n_0_1_1128_wf : GatherDims.WF S32768x128 S524288x1 S524288x128 [1] [0] [] [0] [] 1 ![1, 128]
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  scatter_S32768x256_S524288x1_S524288x256_1_0_0_1_wf : ScatterDims.WF S32768x256 S524288x1 S524288x256 [1] [0] [0] 1
  dot_S32x512x128_S32x512x128_S32x512x512_2_2_1_1_0_0_wf : DotDims.WF S32x512x128 S32x512x128 S32x512x512 [2] [2] [1] [1] [0] [0]
  dot_S32x512x512_S32x512x128_S32x512x128_2_1_1_2_0_0_wf : DotDims.WF S32x512x512 S32x512x128 S32x512x128 [2] [1] [1] [2] [0] [0]
  dot_S2048x128_S128x512_S2048x512_1_0_0_1_n_n_wf : DotDims.WF S2048x128 S128x512 S2048x512 [1] [0] [0] [1] [] []
  dot_S2048x256_S256x512_S2048x512_1_0_0_1_n_n_wf : DotDims.WF S2048x256 S256x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S524288x256.size a
  hwx0_7 : ∀ i : grid0.Coords, EltTy.bits .f32 = 32 ∨ (Rect.block (s := S524288x256) S4096x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S32768x128.size a
  hwx1_0 : ∀ i : grid1.Coords, EltTy.bits .f32 = 32 ∨ (Rect.block (s := S32768x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S32768x256.size a
  hwx1_1 : ∀ i : grid1.Coords, EltTy.bits .f32 = 32 ∨ (Rect.block (s := S32768x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S32768x128.size a
  hwx1_2 : ∀ i : grid1.Coords, EltTy.bits .f32 = 32 ∨ (Rect.block (s := S32768x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S128x512.size a
  hwx1_5 : ∀ i : grid1.Coords, EltTy.bits .f32 = 32 ∨ (Rect.block (s := S128x512) S128x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S512x128.size a
  hwx1_7 : ∀ i : grid1.Coords, EltTy.bits .f32 = 32 ∨ (Rect.block (s := S512x128) S512x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x128.size a ≤ S32768x128.size a
  hwx1_9 : ∀ i : grid1.Coords, EltTy.bits .f32 = 32 ∨ (Rect.block (s := S32768x128) S2048x128.size (cc1_transform_9 i) (hinb1_9 i)).WholeWords (EltTy.packing .f32)

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32x512x128_S32x512x128_S32x512x512_2_2_1_1_0_0 : DotDims S32x512x128 S32x512x128 S32x512x512 where
  lhsContracting := [2]
  rhsContracting := [2]
  lhsNonContracting := [1]
  rhsNonContracting := [1]
  lhsBatch := [0]
  rhsBatch := [0]
  wf := dot_S32x512x128_S32x512x128_S32x512x512_2_2_1_1_0_0_wf
def dot_S32x512x512_S32x512x128_S32x512x128_2_1_1_2_0_0 : DotDims S32x512x512 S32x512x128 S32x512x128 where
  lhsContracting := [2]
  rhsContracting := [1]
  lhsNonContracting := [1]
  rhsNonContracting := [2]
  lhsBatch := [0]
  rhsBatch := [0]
  wf := dot_S32x512x512_S32x512x128_S32x512x128_2_1_1_2_0_0_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v4) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S128x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S512x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v65) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v66) S2048x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32768x128 : Shape := ⟨2, ![32768, 128]⟩
abbrev S2x524288 : Shape := ⟨2, ![2, 524288]⟩
abbrev S256x256 : Shape := ⟨2, ![256, 256]⟩
abbrev S256 : Shape := ⟨1, ![256]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S1x256 : Shape := ⟨2, ![1, 256]⟩
abbrev S32768x256 : Shape := ⟨2, ![32768, 256]⟩
abbrev S32x2x512x128 : Shape := ⟨4, ![32, 2, 512, 128]⟩
abbrev S32x1x512x128 : Shape := ⟨4, ![32, 1, 512, 128]⟩
abbrev S32x512x128 : Shape := ⟨3, ![32, 512, 128]⟩
abbrev S32x512 : Shape := ⟨2, ![32, 512]⟩
abbrev S32x512x1 : Shape := ⟨3, ![32, 512, 1]⟩
abbrev S32x512x512 : Shape := ⟨3, ![32, 512, 512]⟩
abbrev S32768x512 : Shape := ⟨2, ![32768, 512]⟩
abbrev S1x512 : Shape := ⟨2, ![1, 512]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S32768x128, .f32⟩
  | 1 => ⟨S2x524288, .i32⟩
  | 2 => ⟨S256x256, .f32⟩
  | 3 => ⟨S256, .f32⟩
  | 4 => ⟨S256x256, .f32⟩
  | 5 => ⟨S256, .f32⟩
  | 6 => ⟨S512x512, .f32⟩
  | 7 => ⟨S512, .f32⟩
  | 8 => ⟨S512x128, .f32⟩
  | 9 => ⟨S128, .f32⟩
  | 10 => ⟨S1x524288, .i32⟩
  | 11 => ⟨S524288, .i32⟩
  | 12 => ⟨S1x524288, .i32⟩
  | 13 => ⟨S524288, .i32⟩
  | 14 => ⟨S_, .i32⟩
  | 15 => ⟨S524288, .i32⟩
  | 16 => ⟨S524288, .i1⟩
  | 17 => ⟨S_, .i32⟩
  | 18 => ⟨S524288, .i32⟩
  | 19 => ⟨S524288, .i32⟩
  | 20 => ⟨S524288, .i32⟩
  | 21 => ⟨S524288x1, .i32⟩
  | 22 => ⟨S524288x128, .f32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S524288x1, .i32⟩
  | 31 => ⟨S524288x128, .f32⟩
  | 32 => ⟨S524288x256, .f32⟩
  | 33 => ⟨S524288x256, .f32⟩
  | 34 => ⟨S1x256, .f32⟩
  | 35 => ⟨S524288x256, .f32⟩
  | 36 => ⟨S524288x256, .f32⟩
  | 37 => ⟨S_, .f32⟩
  | 38 => ⟨S524288x256, .f32⟩
  | 39 => ⟨S524288x256, .f32⟩
  | 40 => ⟨S524288x256, .f32⟩
  | 41 => ⟨S1x256, .f32⟩
  | 42 => ⟨S524288x256, .f32⟩
  | 43 => ⟨S524288x256, .f32⟩
  | 44 => ⟨S_, .f32⟩
  | 45 => ⟨S524288x256, .f32⟩
  | 46 => ⟨S524288x256, .f32⟩
  | 47 => ⟨S_, .f32⟩
  | 48 => ⟨S32768x256, .f32⟩
  | 49 => ⟨S524288x1, .i32⟩
  | 50 => ⟨S32768x256, .f32⟩
  | 51 => ⟨S32x2x512x128, .f32⟩
  | 52 => ⟨S32x1x512x128, .f32⟩
  | 53 => ⟨S32x512x128, .f32⟩
  | 54 => ⟨S32x1x512x128, .f32⟩
  | 55 => ⟨S32x512x128, .f32⟩
  | 56 => ⟨S32x512x128, .f32⟩
  | 57 => ⟨S_, .f32⟩
  | 58 => ⟨S32x512, .f32⟩
  | 59 => ⟨S32x512x1, .f32⟩
  | 60 => ⟨S32x512x1, .f32⟩
  | 61 => ⟨S_, .f32⟩
  | 62 => ⟨S32x512x1, .f32⟩
  | 63 => ⟨S32x512x1, .f32⟩
  | 64 => ⟨S32x512x128, .f32⟩
  | 65 => ⟨S32x512x128, .f32⟩
  | 66 => ⟨S32x512x128, .f32⟩
  | 67 => ⟨S_, .f32⟩
  | 68 => ⟨S32x512, .f32⟩
  | 69 => ⟨S32x512x1, .f32⟩
  | 70 => ⟨S32x512x1, .f32⟩
  | 71 => ⟨S_, .f32⟩
  | 72 => ⟨S32x512x1, .f32⟩
  | 73 => ⟨S32x512x1, .f32⟩
  | 74 => ⟨S32x512x128, .f32⟩
  | 75 => ⟨S32x512x128, .f32⟩
  | 76 => ⟨S32x512x512, .f32⟩
  | 77 => ⟨S_, .f32⟩
  | 78 => ⟨S32x512, .f32⟩
  | 79 => ⟨S_, .f32⟩
  | 80 => ⟨S32x512, .f32⟩
  | 81 => ⟨S32x512, .f32⟩
  | 82 => ⟨S32x512x1, .f32⟩
  | 83 => ⟨S32x512x512, .f32⟩
  | 84 => ⟨S32x512x512, .f32⟩
  | 85 => ⟨S32x512x512, .f32⟩
  | 86 => ⟨S_, .f32⟩
  | 87 => ⟨S32x512, .f32⟩
  | 88 => ⟨S32x512x1, .f32⟩
  | 89 => ⟨S32x512x512, .f32⟩
  | 90 => ⟨S32x512x512, .f32⟩
  | 91 => ⟨S32x512x512, .f32⟩
  | 92 => ⟨S_, .f32⟩
  | 93 => ⟨S32x512, .f32⟩
  | 94 => ⟨S_, .f32⟩
  | 95 => ⟨S32x512, .f32⟩
  | 96 => ⟨S32x512, .f32⟩
  | 97 => ⟨S32x512x1, .f32⟩
  | 98 => ⟨S32x512x512, .f32⟩
  | 99 => ⟨S32x512x512, .f32⟩
  | 100 => ⟨S32x512x512, .f32⟩
  | 101 => ⟨S_, .f32⟩
  | 102 => ⟨S32x512, .f32⟩
  | 103 => ⟨S32x512x1, .f32⟩
  | 104 => ⟨S32x512x512, .f32⟩
  | 105 => ⟨S32x512x512, .f32⟩
  | 106 => ⟨S32x512x128, .f32⟩
  | 107 => ⟨S32x512x128, .f32⟩
  | 108 => ⟨S32x512x128, .f32⟩
  | 109 => ⟨S32x512x128, .f32⟩
  | 110 => ⟨S32x1x512x128, .f32⟩
  | 111 => ⟨S32x1x512x128, .f32⟩
  | 112 => ⟨S32x2x512x128, .f32⟩
  | 113 => ⟨S32768x128, .f32⟩
  | 114 => ⟨S32768x512, .f32⟩
  | 115 => ⟨S32768x512, .f32⟩
  | 116 => ⟨S1x512, .f32⟩
  | 117 => ⟨S32768x512, .f32⟩
  | 118 => ⟨S32768x512, .f32⟩
  | 119 => ⟨S_, .f32⟩
  | 120 => ⟨S32768x512, .f32⟩
  | 121 => ⟨S32768x512, .f32⟩
  | 122 => ⟨S32768x128, .f32⟩
  | 123 => ⟨S1x128, .f32⟩
  | 124 => ⟨S32768x128, .f32⟩
  | 125 => ⟨S32768x128, .f32⟩
  | 126 => ⟨S_, .f32⟩
  | 127 => ⟨S32768x128, .f32⟩
  | _ => ⟨S32768x128, .f32⟩

abbrev hbmTy0_1 (i : Nat) : BufTy := match i % 128 with
  | 0 => ⟨S32768x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call2_v0 : Ref sig .tc := ⟨.hbm, 56, rfl⟩
abbrev main_call2_cst : Ref sig .tc := ⟨.hbm, 57, rfl⟩
abbrev main_call2_v1 : Ref sig .tc := ⟨.hbm, 58, rfl⟩
abbrev main_call2_v2 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call3_v0 : Ref sig .tc := ⟨.hbm, 66, rfl⟩
abbrev main_call3_cst : Ref sig .tc := ⟨.hbm, 67, rfl⟩
abbrev main_call3_v1 : Ref sig .tc := ⟨.hbm, 68, rfl⟩
abbrev main_call3_v2 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call4_cst : Ref sig .tc := ⟨.hbm, 119, rfl⟩
abbrev main_call4_v0 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call5_cst : Ref sig .tc := ⟨.hbm, 126, rfl⟩
abbrev main_call5_v0 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S_S32768x256 : S_.BroadcastsInDim S32768x256 (![] : Fin 0 → Fin S32768x256.rank)
  shapeCasts_S32768x128_S32x2x512x128 : S32768x128.ShapeCasts S32x2x512x128
  slices_S32x2x512x128_S32x1x512x128_0_0_0_0 : S32x2x512x128.Slices ![0, 0, 0, 0] S32x1x512x128
  shapeCasts_S32x1x512x128_S32x512x128 : S32x1x512x128.ShapeCasts S32x512x128
  slices_S32x2x512x128_S32x1x512x128_0_1_0_0 : S32x2x512x128.Slices ![0, 1, 0, 0] S32x1x512x128
  reducesTo_S32x512x128_S32x512_d2 : S32x512x128.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S32x512x1_S32x512x128_0_1_2 : S32x512x1.BroadcastsInDim S32x512x128 (![0, 1, 2] : Fin 3 → Fin S32x512x128.rank)
  reducesTo_S32x512x512_S32x512_d2 : S32x512x512.ReducesTo [2] S32x512
  bcast_S_S32x512 : S_.BroadcastsInDim S32x512 (![] : Fin 0 → Fin S32x512.rank)
  bcast_S32x512x1_S32x512x512_0_1_2 : S32x512x1.BroadcastsInDim S32x512x512 (![0, 1, 2] : Fin 3 → Fin S32x512x512.rank)
  transposes_S32x512x512_S32x512x512_0_2_1 : S32x512x512.Transposes [0, 2, 1] S32x512x512
  bcast_S32x512x128_S32x1x512x128_0_2_3 : S32x512x128.BroadcastsInDim S32x1x512x128 (![0, 2, 3] : Fin 3 → Fin S32x1x512x128.rank)
  concatenates_S32x1x512x128_S32x1x512x128_S32x2x512x128_d1 : Shape.Concatenates [S32x1x512x128, S32x1x512x128] S32x2x512x128 1
  shapeCasts_S32x2x512x128_S32768x128 : S32x2x512x128.ShapeCasts S32768x128
  concatenates_S32768x128_S32768x256_S32768x128_S32768x512_d1 : Shape.Concatenates [S32768x128, S32768x256, S32768x128] S32768x512 1
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  gather_S32768x128_S524288x1_S524288x128_1_0_n_n_0_1_1128_wf : GatherDims.WF S32768x128 S524288x1 S524288x128 [1] [0] [] [0] [] 1 ![1, 128]
  dot_S524288x256_S256x256_S524288x256_1_0_0_1_n_n_wf : DotDims.WF S524288x256 S256x256 S524288x256 [1] [0] [0] [1] [] []
  scatter_S32768x256_S524288x1_S524288x256_1_0_0_1_wf : ScatterDims.WF S32768x256 S524288x1 S524288x256 [1] [0] [0] 1
  dot_S32x512x128_S32x512x128_S32x512x512_2_2_1_1_0_0_wf : DotDims.WF S32x512x128 S32x512x128 S32x512x512 [2] [2] [1] [1] [0] [0]
  dot_S32x512x512_S32x512x128_S32x512x128_2_1_1_2_0_0_wf : DotDims.WF S32x512x512 S32x512x128 S32x512x128 [2] [1] [1] [2] [0] [0]
  dot_S32768x512_S512x512_S32768x512_1_0_0_1_n_n_wf : DotDims.WF S32768x512 S512x512 S32768x512 [1] [0] [0] [1] [] []
  dot_S32768x512_S512x128_S32768x128_1_0_0_1_n_n_wf : DotDims.WF S32768x512 S512x128 S32768x128 [1] [0] [0] [1] [] []

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32x512x128_S32x512x128_S32x512x512_2_2_1_1_0_0 : DotDims S32x512x128 S32x512x128 S32x512x512 where
  lhsContracting := [2]
  rhsContracting := [2]
  lhsNonContracting := [1]
  rhsNonContracting := [1]
  lhsBatch := [0]
  rhsBatch := [0]
  wf := dot_S32x512x128_S32x512x128_S32x512x512_2_2_1_1_0_0_wf
def dot_S32x512x512_S32x512x128_S32x512x128_2_1_1_2_0_0 : DotDims S32x512x512 S32x512x128 S32x512x128 where
  lhsContracting := [2]
  rhsContracting := [1]
  lhsNonContracting := [1]
  rhsNonContracting := [2]
  lhsBatch := [0]
  rhsBatch := [0]
  wf := dot_S32x512x512_S32x512x128_S32x512x128_2_1_1_2_0_0_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf

class Facts : Prop extends Facts₀ where

variable [Facts]
-- ==== Proof.LibConcatRead.lean ====
/-
  Reading the run of host operations through concatenations.

  What a buffer holds after a line of host operations is computed by a rewriting pass that replaces each
  operation's result by its function of the operands' contents, operand by operand.  Two things stop such a pass at
  a concatenation: the pieces of a concatenation are paired with their shapes in a list, and an entry of such a
  pair is not an ordinary argument; and an operation of three operands takes them as a tuple whose entries' types
  depend on the position.

  * `concatenate_congr2`, `concatenate_congr3`: a concatenation of two (three) pieces depends only on the pieces'
    contents, piece by piece; as congruence rules they let the pass go on inside the pieces.
  * `hold3 g a b c` is `g a b c` under a name, and `nary3_result_hold` states a three-operand operation's result with
    it: the three operands' contents are then ordinary arguments, which the pass reads; unfolding `hold3` afterwards
    gives the operation's function of the tuple, whose entries are read off by position (`Fin.cons_zero`,
    `Fin.cons_one`, `cons_two`).
-/
import Idealize.ShloMosaic.Lib.StableHlo.Run
import Mathlib.Data.Fin.Tuple.Basic

namespace Cert.LibConcatRead

open Idealize.ShloMosaic Idealize.ShloMosaic.StableHlo

section Congr
variable {α : Type}

/-- A concatenation of two pieces depends only on the two pieces' contents. -/
@[congr] theorem concatenate_congr2 (t : Shape) (ax : Fin t.rank) (s1 s2 : Shape) (a a' : s1.Idx → α) (b b' : s2.Idx → α)
    (h : Shape.Concatenates (([⟨s1, a⟩, ⟨s2, b⟩] : List ((s : Shape) × (s.Idx → α))).map (·.1)) t ax)
    (ha : a = a') (hb : b = b') :
    concatenate t ax [⟨s1, a⟩, ⟨s2, b⟩] h = concatenate t ax [⟨s1, a'⟩, ⟨s2, b'⟩] h := by
  subst ha hb; rfl

/-- A concatenation of three pieces depends only on the three pieces' contents. -/
@[congr] theorem concatenate_congr3 (t : Shape) (ax : Fin t.rank) (s1 s2 s3 : Shape) (a a' : s1.Idx → α) (b b' : s2.Idx → α)
    (c c' : s3.Idx → α)
    (h : Shape.Concatenates (([⟨s1, a⟩, ⟨s2, b⟩, ⟨s3, c⟩] : List ((s : Shape) × (s.Idx → α))).map (·.1)) t ax)
    (ha : a = a') (hb : b = b') (hc : c = c') :
    concatenate t ax [⟨s1, a⟩, ⟨s2, b⟩, ⟨s3, c⟩] h = concatenate t ax [⟨s1, a'⟩, ⟨s2, b'⟩, ⟨s3, c'⟩] h := by
  subst ha hb hc; rfl

end Congr

/-- A function of three arguments applied to them, under a name (so that it is not computed until unfolded). -/
def hold3 {α β γ δ : Type} (g : α → β → γ → δ) (a : α) (b : β) (c : γ) : δ := g a b c

variable {τ : Topo} {sig : RefSig} {Val : EltTy → Type} {x a b y : Ref sig .tc}

/-- The three-operand operation's result, the operands' contents as three plain arguments. -/
theorem nary3_result_hold
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = hold3 (fun (X : x.ty.Contents Val) (A : a.ty.Contents Val) (B : b.ty.Contents Val) =>
            f (Fin.cons X (Fin.cons A (Fin.cons B (fun i => i.elim0)))))
          (F (Proc.devRef .tc x)) (F (Proc.devRef .tc a)) (F (Proc.devRef .tc b)) := by
  unfold hold3
  rw [nary_result]; congr 1; funext k; fin_cases k <;> rfl

/-- The third entry of a tuple built by prepending is the second entry of its tail. -/
theorem cons_two {α : Fin 3 → Type} (a : α 0) (p : (i : Fin 2) → α i.succ) : Fin.cons (α := α) a p 2 = p 1 := rfl

end Cert.LibConcatRead
-- ==== Proof.Take.lean ====
/-
  The kernel's row gather under the index range of the precondition.

  `jnp.take` wraps a negative index by adding the number of rows, gathers (the gather itself clamps), and then
  replaces every row whose wrapped index is outside [0, 32767] by the fill value.  The reference's `x[idx]` does
  the same wrap and the same gather and has no fill.  When every index is a node number, 0 ≤ idx < 32768, the
  wrapped index is the index, the range test holds in every row, the mask is all ones and the select returns the
  gather: the two programs read the same rows.
-/
import proofs.«423965_j5583457485044_1_alg».proof.Proof.Gen.KernelIdeal
import proofs.«423965_j5583457485044_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Take

open Idealize.ShloMosaic Idealize.ShloMosaic.ValueIdx Cert.KernelIdeal Cert.KernelIdeal.Gen

variable {F : FTy → Type} [FloatOps F]

/-- Row 0 of the edge table as a vector: the edges' source nodes. -/
def rowOf (ei : IVec S2x524288 32) : IVec S524288 32 :=
  shapeCast S524288 (extractStridedSlice S1x524288 ![0, 0] ei slices_S2x524288_S1x524288_0_0) shapeCasts_S1x524288_S524288

/-- Row 1 of the edge table as a vector: the edges' target nodes. -/
def colOf (ei : IVec S2x524288 32) : IVec S524288 32 :=
  shapeCast S524288 (extractStridedSlice S1x524288 ![1, 0] ei slices_S2x524288_S1x524288_1_0) shapeCasts_S1x524288_S524288

/-- The wrapped indices as the gather's column of start indices. -/
def wrapCol (idx : IVec S524288 32) : IVec S524288x1 32 :=
  broadcastInDim S524288x1 ![0] bcast_S524288_S524288x1_0
    (select (cmpi .slt idx (broadcastInDim S524288 ![] bcast_S_S524288 (constantI S_ 32 0#32)))
      (addi idx (broadcastInDim S524288 ![] bcast_S_S524288 (constantI S_ 32 32768#32))) idx)

/-- Per row: is the wrapped index inside [0, 32767]? -/
def inRange (idx : IVec S524288 32) : IVec S524288 1 :=
  Host.reduce IntOp.andi
    (andi (cmpi .sge (wrapCol idx) (broadcastInDim S524288x1 ![] bcast_S_S524288x1 (constantI S_ 32 0#32)))
      (cmpi .sle (wrapCol idx) (broadcastInDim S524288x1 ![0, 1] bcast_S1x1_S524288x1_0_1
        (broadcastInDim S1x1 ![1] bcast_S1_S1x1_1 (constantI S1 32 32767#32)))))
    (constantI S_ 1 1#1) reducesTo_S524288x1_S524288_d1 h_S_

/-- The kernel program's gather: the gathered rows where the wrapped index is in range, the fill value elsewhere. -/
def takeK (x : FVec F S32768x128 .f32) (idx : IVec S524288 32) : FVec F S524288x128 .f32 :=
  select (broadcastInDim S524288x128 ![0] bcast_S524288_S524288x128_0 (inRange idx))
    (Host.gather gather_S32768x128_S524288x1_S524288x128_1_0_n_n_0_1_1128 x (wrapCol idx))
    (broadcastInDim S524288x128 ![] bcast_S_S524288x128 (constant (F := F) S_ .f32 0x7FC00000#32))

/-- The precondition's last conjunct, decoded: every entry of the edge table is a node number. -/
theorem idx_range_of_pre (a0 : FVec Ideal Cert.Pre_finite_inputs.S32768x128 .f32) (a1 : IVec Cert.Pre_finite_inputs.S2x524288 32)
    (a2 : FVec Ideal Cert.Pre_finite_inputs.S256x256 .f32) (a3 : FVec Ideal Cert.Pre_finite_inputs.S256 .f32)
    (a4 : FVec Ideal Cert.Pre_finite_inputs.S256x256 .f32) (a5 : FVec Ideal Cert.Pre_finite_inputs.S256 .f32)
    (a6 : FVec Ideal Cert.Pre_finite_inputs.S512x512 .f32) (a7 : FVec Ideal Cert.Pre_finite_inputs.S512 .f32)
    (a8 : FVec Ideal Cert.Pre_finite_inputs.S512x128 .f32) (a9 : FVec Ideal Cert.Pre_finite_inputs.S128 .f32)
    (h : Cert.Pre_finite_inputs.fn (F := Ideal) a0 a1 a2 a3 a4 a5 a6 a7 a8 a9 = fun _ => 1#1)
    (i : Cert.Pre_finite_inputs.S2x524288.Idx) : 0 ≤ (a1 i).toInt ∧ (a1 i).toInt < 32768 := by
  have e := congrFun h ValueIdx.ix0
  dsimp only [Cert.Pre_finite_inputs.fn, Cert.Pre_finite_inputs.fn_part1, Cert.Pre_finite_inputs.fn_part2] at e
  obtain ⟨-, e49⟩ := IntOp.andi_eq_one.1 e
  haveI : Subsingleton Cert.Pre_finite_inputs.S_.Idx := ⟨fun a b => funext fun d => d.elim0⟩
  have ei := Host.reduce_andi_all _ _ _ _ _ e49 i
  obtain ⟨h0, h1⟩ := IntOp.andi_eq_one.1 ei
  have h0' : (0#32 : BitVec 32).toInt ≤ (a1 i).toInt := IntOp.cmpi_sge.1 h0
  have h1' : (a1 i).toInt < (32768#32 : BitVec 32).toInt := IntOp.cmpi_slt.1 h1
  have z0 : (0#32 : BitVec 32).toInt = 0 := by decide
  have z1 : (32768#32 : BitVec 32).toInt = 32768 := by decide
  omega

/-- The source-node vector at edge e is the table's entry (0, e). -/
theorem rowOf_apply (ei : IVec S2x524288 32) (e : Fin 524288) : rowOf ei (ix1 e) = ei (ix2 (0 : Fin 2) e) := by
  unfold rowOf
  refine (shapeCast_apply _ _ (ix1 e) (ix2 (0 : Fin 1) e) ?_).trans ?_
  · rw [Shape.rowMajor_val_two, Shape.rowMajor_val_one]
    show (0 : ℕ) * 524288 + e.val = e.val
    omega
  · exact extractStridedSlice_apply _ _ _ _ _ (fun a => match a with
      | ⟨0, _⟩ => rfl
      | ⟨1, _⟩ => by show e.val = 0 + e.val; omega)

/-- The target-node vector at edge e is the table's entry (1, e). -/
theorem colOf_apply (ei : IVec S2x524288 32) (e : Fin 524288) : colOf ei (ix1 e) = ei (ix2 (1 : Fin 2) e) := by
  unfold colOf
  refine (shapeCast_apply _ _ (ix1 e) (ix2 (0 : Fin 1) e) ?_).trans ?_
  · rw [Shape.rowMajor_val_two, Shape.rowMajor_val_one]
    show (0 : ℕ) * 524288 + e.val = e.val
    omega
  · exact extractStridedSlice_apply _ _ _ _ _ (fun a => match a with
      | ⟨0, _⟩ => rfl
      | ⟨1, _⟩ => by show e.val = 0 + e.val; omega)

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    have ha : IntOp.andi 1#1 (f a) = 1#1 := by rw [hl a (List.mem_cons.2 (Or.inl rfl))]; decide
    rw [List.foldl_cons, ha]
    exact foldl_andi_ones f l fun n hn => hl n (List.mem_cons_of_mem _ hn)

/-- A nonnegative index is not wrapped: with every index a node number the column of start indices is the index
    vector itself, laid out as a column. -/
theorem wrapCol_eq_bcast (idx : IVec S524288 32) (h : ∀ e : S524288.Idx, 0 ≤ (idx e).toInt ∧ (idx e).toInt < 32768) :
    wrapCol idx = broadcastInDim S524288x1 ![0] bcast_S524288_S524288x1_0 idx := by
  unfold wrapCol
  congr 1
  funext k
  have hc : ¬ IntOp.cmpi .slt (idx k) (0#32) = 1#1 := by
    rw [IntOp.cmpi_slt]
    have z0 : (0#32 : BitVec 32).toInt = 0 := by decide
    have := (h k).1
    omega
  exact if_neg hc

/-- Every entry of the column of start indices is one of the indices. -/
theorem wrapCol_mem (idx : IVec S524288 32) (h : ∀ e : S524288.Idx, 0 ≤ (idx e).toInt ∧ (idx e).toInt < 32768)
    (i : S524288x1.Idx) : ∃ k : S524288.Idx, wrapCol idx i = idx k := by
  rw [wrapCol_eq_bcast idx h]
  exact ⟨_, rfl⟩

/-- Row p of the column of start indices is index p. -/
theorem wrapCol_apply (idx : IVec S524288 32) (h : ∀ e : S524288.Idx, 0 ≤ (idx e).toInt ∧ (idx e).toInt < 32768)
    (p : Fin 524288) : wrapCol idx (ix2 p (0 : Fin 1)) = idx (ix1 p) := by
  rw [wrapCol_eq_bcast idx h]
  exact broadcastInDim_apply _ _ _ _ _ (fun a => match a with
    | ⟨0, _⟩ => by show p.val = if (524288 : ℕ) = 1 then 0 else p.val; rw [if_neg (by decide)])

/-- With every index a node number the range test holds in every row. -/
theorem inRange_eq_one (idx : IVec S524288 32) (h : ∀ e : S524288.Idx, 0 ≤ (idx e).toInt ∧ (idx e).toInt < 32768)
    (e : S524288.Idx) : inRange idx e = 1#1 := by
  unfold inRange
  rw [Host.reduce_eq_foldl]
  refine foldl_andi_ones _ _ fun i _ => ?_
  obtain ⟨k, hk⟩ := wrapCol_mem idx h i
  refine IntOp.andi_eq_one.2 ⟨IntOp.cmpi_sge.2 ?_, IntOp.cmpi_sle.2 ?_⟩
  · show (0#32 : BitVec 32).toInt ≤ (wrapCol idx i).toInt
    have z0 : (0#32 : BitVec 32).toInt = 0 := by decide
    have := (h k).1
    rw [hk]; omega
  · show (wrapCol idx i).toInt ≤ (32767#32 : BitVec 32).toInt
    have z1 : (32767#32 : BitVec 32).toInt = 32767 := by decide
    have := (h k).2
    rw [hk]; omega

/-- With every index a node number the fill is never taken: the kernel program's gather is the plain gather at
    the wrapped indices, which is what the reference computes. -/
theorem takeK_eq_gather (x : FVec F S32768x128 .f32) (idx : IVec S524288 32)
    (h : ∀ e : S524288.Idx, 0 ≤ (idx e).toInt ∧ (idx e).toInt < 32768) :
    takeK x idx = Host.gather gather_S32768x128_S524288x1_S524288x128_1_0_n_n_0_1_1128 x (wrapCol idx) := by
  funext j
  unfold takeK
  have hm : broadcastInDim S524288x128 ![0] bcast_S524288_S524288x128_0 (inRange idx) j = 1#1 :=
    inRange_eq_one idx h _
  rw [select_apply, hm]
  exact select_one _ _

end Cert.KernelIdeal.Take

end
-- ==== Proof.KernelFold.lean ====
/-
  What each array of the two kernel launches holds when its launch is entered, as a function of the arguments.

  The first launch reads the two gathered row arrays, the two halves of the first weight matrix, the two bias
  vectors as one-row matrices and the second weight matrix.  The second launch reads the node rows, the segment sum
  of the first launch's output, the cross-graph term, the three row bands of its first weight matrix, the two bias
  rows and its second weight matrix.  Each is read off the host operations that precede the launch.
-/
import proofs.«423965_j5583457485044_1_alg».proof.Proof.Gen.KernelIdeal.Frame
import proofs.«423965_j5583457485044_1_alg».proof.Proof.Take

set_option maxRecDepth 16384

noncomputable section

namespace Cert.KernelIdeal.Fold

open Cert.KernelIdeal Cert.KernelIdeal.Gen Cert.KernelIdeal.Take
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node rows as launched. -/
abbrev xA (c : Dev nD) : FVec F S32768x128 .f32 := m ((c.tc : Thread nD τ).loc main_arg0)
/-- The edge table as launched. -/
abbrev eiA (c : Dev nD) : IVec S2x524288 32 := m ((c.tc : Thread nD τ).loc main_arg1)

/-! ## The first launch's arrays -/

theorem V4_v4 (c : Dev nD) : (V4 m ρ c main_v4 : FVec F S524288x128 .f32) = takeK (xA m c) (rowOf (eiA m c)) := by
  show StableHlo.after hostOps0_3 (StableHlo.after hostOps0_2 (StableHlo.after hostOps0_1 (StableHlo.after hostOps0 (W0 m ρ c)))) (Proc.devRef .tc main_v4) = _
  after_results_simp
  simp only [TRef.ofBuf, TRef.toBuf, cast_eq]
  rfl

theorem V4_v5 (c : Dev nD) : (V4 m ρ c main_v5 : FVec F S524288x128 .f32) = takeK (xA m c) (colOf (eiA m c)) := by
  show StableHlo.after hostOps0_3 (StableHlo.after hostOps0_2 (StableHlo.after hostOps0_1 (StableHlo.after hostOps0 (W0 m ρ c)))) (Proc.devRef .tc main_v5) = _
  after_results_simp
  simp only [TRef.ofBuf, TRef.toBuf, cast_eq]
  rfl

theorem V4_v6 (c : Dev nD) : (V4 m ρ c main_v6 : FVec F S128x256 .f32)
    = extractStridedSlice S128x256 ![0, 0] (m ((c.tc : Thread nD τ).loc main_arg2) : FVec F S256x256 .f32) slices_S256x256_S128x256_0_0 := by
  show StableHlo.after hostOps0_3 (StableHlo.after hostOps0_2 (StableHlo.after hostOps0_1 (StableHlo.after hostOps0 (W0 m ρ c)))) (Proc.devRef .tc main_v6) = _
  after_results_simp <;> rfl

theorem V4_v7 (c : Dev nD) : (V4 m ρ c main_v7 : FVec F S128x256 .f32)
    = extractStridedSlice S128x256 ![128, 0] (m ((c.tc : Thread nD τ).loc main_arg2) : FVec F S256x256 .f32) slices_S256x256_S128x256_128_0 := by
  show StableHlo.after hostOps0_3 (StableHlo.after hostOps0_2 (StableHlo.after hostOps0_1 (StableHlo.after hostOps0 (W0 m ρ c)))) (Proc.devRef .tc main_v7) = _
  after_results_simp <;> rfl

theorem V4_v8 (c : Dev nD) : (V4 m ρ c main_v8 : FVec F S1x256 .f32)
    = shapeCast S1x256 (m ((c.tc : Thread nD τ).loc main_arg3) : FVec F S256 .f32) shapeCasts_S256_S1x256 := by
  show StableHlo.after hostOps0_3 (StableHlo.after hostOps0_2 (StableHlo.after hostOps0_1 (StableHlo.after hostOps0 (W0 m ρ c)))) (Proc.devRef .tc main_v8) = _
  after_results_simp <;> rfl

theorem V4_arg4 (c : Dev nD) : V4 m ρ c main_arg4 = m ((c.tc : Thread nD τ).loc main_arg4) := by
  show StableHlo.after hostOps0_3 (StableHlo.after hostOps0_2 (StableHlo.after hostOps0_1 (StableHlo.after hostOps0 (W0 m ρ c)))) (Proc.devRef .tc main_arg4) = _
  after_results_simp <;> rfl

theorem V4_v9 (c : Dev nD) : (V4 m ρ c main_v9 : FVec F S1x256 .f32)
    = shapeCast S1x256 (m ((c.tc : Thread nD τ).loc main_arg5) : FVec F S256 .f32) shapeCasts_S256_S1x256 := by
  show StableHlo.after hostOps0_3 (StableHlo.after hostOps0_2 (StableHlo.after hostOps0_1 (StableHlo.after hostOps0 (W0 m ρ c)))) (Proc.devRef .tc main_v9) = _
  after_results_simp <;> rfl

/-! ## The first launch's exit contents at the buffers the later host operations read -/

theorem W5_main_arg0 (c : Dev nD) : W5 m ρ c (Proc.devRef .tc main_arg0) = m ((c.tc : Thread nD τ).loc main_arg0) := by
  refine (W5_of_ne m ρ c main_arg0 (by decide)).trans ?_
  show StableHlo.after hostOps0_3 (StableHlo.after hostOps0_2 (StableHlo.after hostOps0_1 (StableHlo.after hostOps0 (W0 m ρ c)))) (Proc.devRef .tc main_arg0) = _
  after_results_simp <;> rfl

theorem W5_main_arg6 (c : Dev nD) : W5 m ρ c (Proc.devRef .tc main_arg6) = m ((c.tc : Thread nD τ).loc main_arg6) := by
  refine (W5_of_ne m ρ c main_arg6 (by decide)).trans ?_
  show StableHlo.after hostOps0_3 (StableHlo.after hostOps0_2 (StableHlo.after hostOps0_1 (StableHlo.after hostOps0 (W0 m ρ c)))) (Proc.devRef .tc main_arg6) = _
  after_results_simp <;> rfl

theorem W5_main_arg7 (c : Dev nD) : W5 m ρ c (Proc.devRef .tc main_arg7) = m ((c.tc : Thread nD τ).loc main_arg7) := by
  refine (W5_of_ne m ρ c main_arg7 (by decide)).trans ?_
  show StableHlo.after hostOps0_3 (StableHlo.after hostOps0_2 (StableHlo.after hostOps0_1 (StableHlo.after hostOps0 (W0 m ρ c)))) (Proc.devRef .tc main_arg7) = _
  after_results_simp <;> rfl

theorem W5_main_arg8 (c : Dev nD) : W5 m ρ c (Proc.devRef .tc main_arg8) = m ((c.tc : Thread nD τ).loc main_arg8) := by
  refine (W5_of_ne m ρ c main_arg8 (by decide)).trans ?_
  show StableHlo.after hostOps0_3 (StableHlo.after hostOps0_2 (StableHlo.after hostOps0_1 (StableHlo.after hostOps0 (W0 m ρ c)))) (Proc.devRef .tc main_arg8) = _
  after_results_simp <;> rfl

theorem W5_main_arg9 (c : Dev nD) : W5 m ρ c (Proc.devRef .tc main_arg9) = m ((c.tc : Thread nD τ).loc main_arg9) := by
  refine (W5_of_ne m ρ c main_arg9 (by decide)).trans ?_
  show StableHlo.after hostOps0_3 (StableHlo.after hostOps0_2 (StableHlo.after hostOps0_1 (StableHlo.after hostOps0 (W0 m ρ c)))) (Proc.devRef .tc main_arg9) = _
  after_results_simp <;> rfl

theorem W5_main_v1 (c : Dev nD) : (W5 m ρ c (Proc.devRef .tc main_v1) : IVec S524288 32) = rowOf (eiA m c) := by
  refine (W5_of_ne m ρ c main_v1 (by decide)).trans ?_
  show StableHlo.after hostOps0_3 (StableHlo.after hostOps0_2 (StableHlo.after hostOps0_1 (StableHlo.after hostOps0 (W0 m ρ c)))) (Proc.devRef .tc main_v1) = _
  after_results_simp <;> rfl

/-! ## The second launch's arrays -/

theorem V10_arg0 (c : Dev nD) : V10 m ρ c main_arg0 = m ((c.tc : Thread nD τ).loc main_arg0) := by
  refine Eq.trans ?_ (W5_main_arg0 m ρ c)
  show StableHlo.after hostOps1_4 (StableHlo.after hostOps1_3 (StableHlo.after hostOps1_2 (StableHlo.after hostOps1_1 (StableHlo.after hostOps1 (W5 m ρ c))))) (Proc.devRef .tc main_arg0) = _
  after_results_simp <;> rfl

/-- The summed messages: the scatter-add of the first launch's output array along the source nodes. -/
theorem V10_v13 (c : Dev nD) : (V10 m ρ c main_v13 : FVec F S32768x256 .f32)
    = Host.scatterAdd scatter_S32768x256_S524288x1_S524288x256_1_0_0_1
        (broadcastInDim S32768x256 ![] bcast_S_S32768x256 (constant (F := F) S_ .f32 0x00000000#32))
        (broadcastInDim S524288x1 ![0] bcast_S524288_S524288x1_0 (rowOf (eiA m c)))
        (W5 m ρ c (Proc.devRef .tc main_v10) : FVec F S524288x256 .f32) := by
  rw [← W5_main_v1 m ρ c]
  show StableHlo.after hostOps1_4 (StableHlo.after hostOps1_3 (StableHlo.after hostOps1_2 (StableHlo.after hostOps1_1 (StableHlo.after hostOps1 (W5 m ρ c))))) (Proc.devRef .tc main_v13) = _
  after_results_simp <;> rfl

theorem V10_v61 (c : Dev nD) : (V10 m ρ c main_v61 : FVec F S128x512 .f32)
    = extractStridedSlice S128x512 ![0, 0] (m ((c.tc : Thread nD τ).loc main_arg6) : FVec F S512x512 .f32) slices_S512x512_S128x512_0_0 := by
  rw [← W5_main_arg6 m ρ c]
  show StableHlo.after hostOps1_4 (StableHlo.after hostOps1_3 (StableHlo.after hostOps1_2 (StableHlo.after hostOps1_1 (StableHlo.after hostOps1 (W5 m ρ c))))) (Proc.devRef .tc main_v61) = _
  after_results_simp <;> rfl

theorem V10_v62 (c : Dev nD) : (V10 m ρ c main_v62 : FVec F S256x512 .f32)
    = extractStridedSlice S256x512 ![128, 0] (m ((c.tc : Thread nD τ).loc main_arg6) : FVec F S512x512 .f32) slices_S512x512_S256x512_128_0 := by
  rw [← W5_main_arg6 m ρ c]
  show StableHlo.after hostOps1_4 (StableHlo.after hostOps1_3 (StableHlo.after hostOps1_2 (StableHlo.after hostOps1_1 (StableHlo.after hostOps1 (W5 m ρ c))))) (Proc.devRef .tc main_v62) = _
  after_results_simp <;> rfl

theorem V10_v63 (c : Dev nD) : (V10 m ρ c main_v63 : FVec F S128x512 .f32)
    = extractStridedSlice S128x512 ![384, 0] (m ((c.tc : Thread nD τ).loc main_arg6) : FVec F S512x512 .f32) slices_S512x512_S128x512_384_0 := by
  rw [← W5_main_arg6 m ρ c]
  show StableHlo.after hostOps1_4 (StableHlo.after hostOps1_3 (StableHlo.after hostOps1_2 (StableHlo.after hostOps1_1 (StableHlo.after hostOps1 (W5 m ρ c))))) (Proc.devRef .tc main_v63) = _
  after_results_simp <;> rfl

theorem V10_v64 (c : Dev nD) : (V10 m ρ c main_v64 : FVec F S1x512 .f32)
    = shapeCast S1x512 (m ((c.tc : Thread nD τ).loc main_arg7) : FVec F S512 .f32) shapeCasts_S512_S1x512 := by
  rw [← W5_main_arg7 m ρ c]
  show StableHlo.after hostOps1_4 (StableHlo.after hostOps1_3 (StableHlo.after hostOps1_2 (StableHlo.after hostOps1_1 (StableHlo.after hostOps1 (W5 m ρ c))))) (Proc.devRef .tc main_v64) = _
  after_results_simp <;> rfl

theorem V10_arg8 (c : Dev nD) : V10 m ρ c main_arg8 = m ((c.tc : Thread nD τ).loc main_arg8) := by
  refine Eq.trans ?_ (W5_main_arg8 m ρ c)
  show StableHlo.after hostOps1_4 (StableHlo.after hostOps1_3 (StableHlo.after hostOps1_2 (StableHlo.after hostOps1_1 (StableHlo.after hostOps1 (W5 m ρ c))))) (Proc.devRef .tc main_arg8) = _
  after_results_simp <;> rfl

theorem V10_v65 (c : Dev nD) : (V10 m ρ c main_v65 : FVec F S1x128 .f32)
    = shapeCast S1x128 (m ((c.tc : Thread nD τ).loc main_arg9) : FVec F S128 .f32) shapeCasts_S128_S1x128 := by
  rw [← W5_main_arg9 m ρ c]
  show StableHlo.after hostOps1_4 (StableHlo.after hostOps1_3 (StableHlo.after hostOps1_2 (StableHlo.after hostOps1_1 (StableHlo.after hostOps1 (W5 m ρ c))))) (Proc.devRef .tc main_v65) = _
  after_results_simp <;> rfl

end Cert.KernelIdeal.Fold

end
-- ==== Proof.Spec.lean ====
/-
  The two message-passing perceptrons, one output entry at a time, over the extended reals.

  An edge's message is a two-layer rectified perceptron of the concatenation of the two endpoint rows: entry q is
  max(Σ_j max(Σ_k cat_k · W1[k,j] + b1_j, 0) · W2[j,q] + b2_q, 0).  The kernel never forms the concatenation: it
  multiplies the source row by the top half of W1 and the target row by the bottom half and adds the two
  products.  The two agree because a sum over 256 = 128 + 128 indices is the sum over the first 128 plus the sum
  over the last 128; addition of extended reals is commutative and associative, so no finiteness is needed.
  The node update is the same with three pieces, 512 = 128 + 256 + 128.
-/
import Mathlib.Data.EReal.Basic
import Mathlib.Algebra.BigOperators.Fin

noncomputable section

namespace Cert.Spec

/-- Entry q of an edge's message: the first layer's sum is written as the kernel computes it, the source row
    against `wa` plus the target row against `wb`. -/
def edgeEntry (xr xc : Fin 128 → EReal) (wa wb : Fin 128 → Fin 256 → EReal) (b1 : Fin 256 → EReal)
    (w2 : Fin 256 → Fin 256 → EReal) (b2 : Fin 256 → EReal) (q : Fin 256) : EReal :=
  max (∑ j : Fin 256, max ((∑ k : Fin 128, xr k * wa k j + ∑ k : Fin 128, xc k * wb k j) + b1 j) 0 * w2 j q + b2 q) 0

/-- Entry q of a node's update: the node's own row against `wa`, its summed messages against `wb`, its
    cross-graph term against `wc`. -/
def nodeEntry (x : Fin 128 → EReal) (ms : Fin 256 → EReal) (us : Fin 128 → EReal)
    (wa : Fin 128 → Fin 512 → EReal) (wb : Fin 256 → Fin 512 → EReal) (wc : Fin 128 → Fin 512 → EReal)
    (b1 : Fin 512 → EReal) (w2 : Fin 512 → Fin 128 → EReal) (b2 : Fin 128 → EReal) (q : Fin 128) : EReal :=
  max (∑ j : Fin 512, max (((∑ k : Fin 128, x k * wa k j + ∑ k : Fin 256, ms k * wb k j)
      + ∑ k : Fin 128, us k * wc k j) + b1 j) 0 * w2 j q + b2 q) 0

/-- A sum over 256 indices is the sum over the first 128 plus the sum over the last 128. -/
theorem sum_split2 (f : Fin 256 → EReal) :
    ∑ k : Fin 256, f k
      = ∑ k : Fin 128, f ⟨k.val, by have := k.isLt; omega⟩ + ∑ k : Fin 128, f ⟨128 + k.val, by have := k.isLt; omega⟩ := by
  have h := Fin.sum_univ_add (a := 128) (b := 128) (f := (f : Fin (128 + 128) → EReal))
  refine h.trans ?_
  rfl

/-- A sum over 512 indices is the sum over the first 128, the next 256 and the last 128. -/
theorem sum_split3 (f : Fin 512 → EReal) :
    ∑ k : Fin 512, f k
      = (∑ k : Fin 128, f ⟨k.val, by have := k.isLt; omega⟩ + ∑ k : Fin 256, f ⟨128 + k.val, by have := k.isLt; omega⟩)
        + ∑ k : Fin 128, f ⟨384 + k.val, by have := k.isLt; omega⟩ := by
  have h1 := Fin.sum_univ_add (a := 384) (b := 128) (f := (f : Fin (384 + 128) → EReal))
  have h2 := Fin.sum_univ_add (a := 128) (b := 256) (f := fun i : Fin (128 + 256) => f ⟨i.val, by have := i.isLt; omega⟩)
  refine h1.trans ?_
  refine congrArg₂ (· + ·) (h2.trans ?_) ?_
  · rfl
  · rfl

end Cert.Spec

end
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.EdgeBody.lean ====
/-
  What one grid point of the edge kernel leaves in its output block, one entry at a time.

  The body multiplies the block of source rows by the top half of the first weight matrix and the block of target
  rows by the bottom half, adds the two products and the first bias row, rectifies, multiplies by the second weight
  matrix, adds the second bias row and rectifies again.  Roundings to bf16 are the identity over the extended
  reals, a product accumulated into zeros is the plain sum over the contracted index, and the rectifier is
  max(·, 0).  So entry (p, q) of the block is `Spec.edgeEntry` of row p of the two row blocks.

  The steps: the body's one store covers the whole output block at offset zero and its loads read whole blocks at
  offset zero, so the block left is the stored value of the blocks read (`out_eq_pay`); a one-row matrix laid
  down every row, read at (p, q), is its entry (0, q) (`bias_apply`); and the stored value read at (p, q),
  operation by operation, is the perceptron's entry (`pay_apply`).
-/
import proofs.«423965_j5583457485044_1_alg».proof.Proof.Gen.KernelIdeal.Frame
import proofs.«423965_j5583457485044_1_alg».proof.Proof.Spec
import proofs.«423965_j5583457485044_1_alg».proof.Proof.LibPlainRows

noncomputable section

namespace Cert.KernelIdeal.EdgeBody

open Idealize.ShloMosaic Idealize.ShloMosaic.ValueIdx Cert.KernelIdeal Cert.KernelIdeal.Gen

/-- The offsets of every rectangle the body reads or writes through are zero on both axes. -/
theorem hz : (![0, 0] : Fin 2 → Nat) = fun _ => 0 :=
  funext fun a => match a with
    | ⟨0, _⟩ => rfl
    | ⟨1, _⟩ => rfl

/-- The block the body leaves is the value it stores, of the blocks it reads: the one store covers the whole block
    at offset zero, and each load reads a whole block at offset zero. -/
theorem out_eq_pay (x0 x1 : FVec Ideal S4096x128 .f32) (x2 x3 : FVec Ideal S128x256 .f32) (x4 : FVec Ideal S1x256 .f32)
    (x5 : FVec Ideal S256x256 .f32) (x6 : FVec Ideal S1x256 .f32) :
    out0_7 (F := Ideal) x0 x1 x2 x3 x4 x5 x6 = k0_pay1 (F := Ideal) x0 x1 x2 x3 x4 x5 x6 := by
  unfold out0_7
  rw [View.canon_unit_zero hz]
  simp only [View.ld_unit_zero (S := S4096x128) hz, View.ld_unit_zero (S := S128x256) hz,
    View.ld_unit_zero (S := S1x256) hz, View.ld_unit_zero (S := S256x256) hz]

/-- A 1×256 row laid down each of the 4096 rows, read at (p, q), is the row's entry (0, q): the row axis of the
    operand has extent one, so its coordinate is 0; the column axis has extent 256 ≠ 1, so its coordinate is q. -/
theorem bias_apply (x : FVec Ideal S1x256 .f32) (p : Fin 4096) (q : Fin 256) :
    broadcastTo S4096x256 x broadcasts_S1x256_S4096x256 (ix2 p q) = x (ix2 (0 : Fin 1) q) := by
  refine broadcastTo_apply x _ (ix2 p q) (ix2 (0 : Fin 1) q) ?_
  intro a
  match a with
  | ⟨0, _⟩ => rfl
  | ⟨1, _⟩ => rfl

/-- The stored value at (p, q).  Casts to the same shape and roundings to bf16 drop; each product into the zero
    block is the sum over its contracted index (128 terms in the first layer's two products, 256 in the second
    layer's); sums, maxima and the zero constant are read entry by entry; the bias rows are read at (0, ·).  What
    is left is `Spec.edgeEntry` term for term. -/
theorem pay_apply (x0 x1 : FVec Ideal S4096x128 .f32) (x2 x3 : FVec Ideal S128x256 .f32) (x4 : FVec Ideal S1x256 .f32)
    (x5 : FVec Ideal S256x256 .f32) (x6 : FVec Ideal S1x256 .f32) (p : Fin 4096) (q : Fin 256) :
    k0_pay1 (F := Ideal) x0 x1 x2 x3 x4 x5 x6 (ix2 p q)
      = Cert.Spec.edgeEntry (fun k => x0 (ix2 p k)) (fun k => x1 (ix2 p k)) (fun k j => x2 (ix2 k j))
          (fun k j => x3 (ix2 k j)) (fun j => x4 (ix2 (0 : Fin 1) j)) (fun j q' => x5 (ix2 j q'))
          (fun q' => x6 (ix2 (0 : Fin 1) q')) q := by
  unfold k0_pay1 Cert.Spec.edgeEntry
  simp only [shapeCast_self, maximumf_apply, addf_apply, broadcast_apply, truncf_apply, bias_apply,
    PlainRows.matmul_zero_rows_apply dot_S4096x128_S128x256_S4096x256_1_0_0_1_n_n rfl,
    PlainRows.matmul_zero_rows_apply dot_S4096x256_S256x256_S4096x256_1_0_0_1_n_n rfl,
    Ideal.ofBits_def, Ideal.ofBits_zero_f32]

theorem out_apply (x0 x1 : FVec Ideal S4096x128 .f32) (x2 x3 : FVec Ideal S128x256 .f32) (x4 : FVec Ideal S1x256 .f32)
    (x5 : FVec Ideal S256x256 .f32) (x6 : FVec Ideal S1x256 .f32) (p : Fin 4096) (q : Fin 256) :
    out0_7 (F := Ideal) x0 x1 x2 x3 x4 x5 x6 (ix2 p q)
      = Cert.Spec.edgeEntry (fun k => x0 (ix2 p k)) (fun k => x1 (ix2 p k)) (fun k j => x2 (ix2 k j))
          (fun k j => x3 (ix2 k j)) (fun j => x4 (ix2 (0 : Fin 1) j)) (fun j q' => x5 (ix2 j q'))
          (fun q' => x6 (ix2 (0 : Fin 1) q')) q :=
  (congrFun (out_eq_pay x0 x1 x2 x3 x4 x5 x6) (ix2 p q)).trans (pay_apply x0 x1 x2 x3 x4 x5 x6 p q)

end Cert.KernelIdeal.EdgeBody

end
-- ==== Proof.NodeBody.lean ====
/-
  What one grid point of the node kernel leaves in its output block, one entry at a time.

  The body multiplies the block of node rows by the first 128 rows of the first weight matrix, the block of summed
  messages by the next 256 rows and the block of cross-graph terms by the last 128 rows, adds the three products
  and the first bias row, rectifies, multiplies by the second weight matrix, adds the second bias row and
  rectifies again.  Over the extended reals entry (p, q) of the block is `Spec.nodeEntry` of row p of the three
  row blocks.

  The body loads each of its nine blocks whole and stores its one result over the whole output block, so the block
  it leaves is the stored value itself, a function of the nine loaded blocks.  That value is read at (p, q) from the
  outside in: a maximum, a sum and a format change read entry by entry (the format change is the identity on
  extended reals, and so is a cast to the same shape); a one-row matrix laid along every row reads its entry in
  column q; a product accumulated into the zero matrix reads as the sum over the contracted coordinate of the
  products of the entries; the zero word is the extended real 0.  What is left is `Spec.nodeEntry` written out.
-/
import proofs.«423965_j5583457485044_1_alg».proof.Proof.Gen.KernelIdeal.Frame
import proofs.«423965_j5583457485044_1_alg».proof.Proof.Spec
import proofs.«423965_j5583457485044_1_alg».proof.Proof.LibPlainRows

noncomputable section

namespace Cert.KernelIdeal.NodeBody

open Idealize.ShloMosaic Idealize.ShloMosaic.ValueIdx Idealize.ShloMosaic.PlainRows Cert.KernelIdeal Cert.KernelIdeal.Gen

/-- The offsets of every load and of the store: zero on both axes. -/
theorem offsets_zero : (![0, 0] : Fin 2 → Nat) = fun _ => 0 := funext fun a => by
  match a with
  | ⟨0, _⟩ => rfl
  | ⟨1, _⟩ => rfl

/-- A one-row matrix laid along every row of an m×n matrix, read at (p, q), is the row's entry q. -/
theorem oneRow_broadcast_apply {α : Type} {m n : Nat} (x : (⟨2, ![1, n]⟩ : Shape).Idx → α)
    (hb : (⟨2, ![1, n]⟩ : Shape).Broadcasts ⟨2, ![m, n]⟩) (p : Fin m) (q : Fin n) :
    broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- Every load reads its whole block and the one store covers the whole output block: the block left is the
    stored value, the second rectifier over the second layer of the nine blocks. -/
theorem out_eq (x0 : FVec Ideal S2048x128 .f32) (x1 : FVec Ideal S2048x256 .f32) (x2 : FVec Ideal S2048x128 .f32)
    (x3 : FVec Ideal S128x512 .f32) (x4 : FVec Ideal S256x512 .f32) (x5 : FVec Ideal S128x512 .f32)
    (x6 : FVec Ideal S1x512 .f32) (x7 : FVec Ideal S512x128 .f32) (x8 : FVec Ideal S1x128 .f32) :
    out1_9 (F := Ideal) x0 x1 x2 x3 x4 x5 x6 x7 x8 = k1_pay1 (F := Ideal) (k1_pay2 (F := Ideal) x0 x1 x2 x3 x4 x5 x6 x7 x8) := by
  unfold out1_9
  rw [View.canon_unit_zero offsets_zero]
  simp only [View.ld_unit_zero (S := S2048x128) offsets_zero, View.ld_unit_zero (S := S2048x256) offsets_zero,
    View.ld_unit_zero (S := S128x512) offsets_zero, View.ld_unit_zero (S := S256x512) offsets_zero,
    View.ld_unit_zero (S := S1x512) offsets_zero, View.ld_unit_zero (S := S512x128) offsets_zero,
    View.ld_unit_zero (S := S1x128) offsets_zero]

/-- The second layer before its rectifier, at (p, q): the rectified first layer of row p against column q of the
    second weight matrix, plus the second bias. -/
theorem pay2_apply (x0 : FVec Ideal S2048x128 .f32) (x1 : FVec Ideal S2048x256 .f32) (x2 : FVec Ideal S2048x128 .f32)
    (x3 : FVec Ideal S128x512 .f32) (x4 : FVec Ideal S256x512 .f32) (x5 : FVec Ideal S128x512 .f32)
    (x6 : FVec Ideal S1x512 .f32) (x7 : FVec Ideal S512x128 .f32) (x8 : FVec Ideal S1x128 .f32)
    (p : Fin 2048) (q : Fin 128) :
    k1_pay2 (F := Ideal) x0 x1 x2 x3 x4 x5 x6 x7 x8 (ix2 p q)
      = ∑ j : Fin 512, max (((∑ k : Fin 128, x0 (ix2 p k) * x3 (ix2 k j) + ∑ k : Fin 256, x1 (ix2 p k) * x4 (ix2 k j))
          + ∑ k : Fin 128, x2 (ix2 p k) * x5 (ix2 k j)) + x6 (ix2 (0 : Fin 1) j)) 0 * x7 (ix2 j q)
        + x8 (ix2 (0 : Fin 1) q) := by
  unfold k1_pay2
  simp only [addf_apply, maximumf_apply, truncf_apply, broadcast_apply, shapeCast_self,
    oneRow_broadcast_apply,
    matmul_zero_rows_apply dot_S2048x512_S512x128_S2048x128_1_0_0_1_n_n rfl,
    matmul_zero_rows_apply dot_S2048x128_S128x512_S2048x512_1_0_0_1_n_n rfl,
    matmul_zero_rows_apply dot_S2048x256_S256x512_S2048x512_1_0_0_1_n_n rfl,
    Ideal.ofBits_def, Ideal.ofBits_zero_f32]

theorem out_apply (x0 : FVec Ideal S2048x128 .f32) (x1 : FVec Ideal S2048x256 .f32) (x2 : FVec Ideal S2048x128 .f32)
    (x3 : FVec Ideal S128x512 .f32) (x4 : FVec Ideal S256x512 .f32) (x5 : FVec Ideal S128x512 .f32)
    (x6 : FVec Ideal S1x512 .f32) (x7 : FVec Ideal S512x128 .f32) (x8 : FVec Ideal S1x128 .f32)
    (p : Fin 2048) (q : Fin 128) :
    out1_9 (F := Ideal) x0 x1 x2 x3 x4 x5 x6 x7 x8 (ix2 p q)
      = Cert.Spec.nodeEntry (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j)) (fun j q' => x7 (ix2 j q')) (fun q' => x8 (ix2 (0 : Fin 1) q')) q := by
  rw [out_eq]
  unfold k1_pay1
  simp only [maximumf_apply, broadcast_apply, pay2_apply, Ideal.ofBits_def, Ideal.ofBits_zero_f32]
  rfl

end Cert.KernelIdeal.NodeBody

end
-- ==== Proof.KernelValue.lean ====
/-
  The two launches' output arrays as whole-array functions of the arrays the launches read.

  Grid point t of the edge launch reads rows 4096·t … 4096·t + 4095 of the two gathered row arrays and all of the
  weights, and writes rows 4096·t … 4096·t + 4095 of the message array; its 128 points cover the 524288 rows.
  The node launch does the same with blocks of 2048 rows over 16 points.  Since entry (p, q) of a block depends on
  row p of the row blocks only, every block is the restriction of ONE function of the whole arrays: entry (e, q)
  is `Spec.edgeEntry` (`Spec.nodeEntry`) of row e.
-/
import proofs.«423965_j5583457485044_1_alg».proof.Proof.Gen.KernelIdeal.Frame
import proofs.«423965_j5583457485044_1_alg».proof.Proof.EdgeBody
import proofs.«423965_j5583457485044_1_alg».proof.Proof.NodeBody

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The edge launch -/

/-- Entry (e, q) of the message array from row e of the two row arrays and the weights. -/
def edgeAt (xr xc : FVec Ideal S524288x128 .f32) (wa wb : FVec Ideal S128x256 .f32) (b1 : FVec Ideal S1x256 .f32)
    (w2 : FVec Ideal S256x256 .f32) (b2 : FVec Ideal S1x256 .f32) (e : Fin 524288) (q : Fin 256) : EReal :=
  Cert.Spec.edgeEntry (fun k => xr (ix2 e k)) (fun k => xc (ix2 e k))
    (fun k j => wa (ix2 k j)) (fun k j => wb (ix2 k j)) (fun j => b1 (ix2 (0 : Fin 1) j)) (fun j q' => w2 (ix2 j q'))
    (fun q' => b2 (ix2 (0 : Fin 1) q')) q

/-- The message array as one function of the arrays the launch reads. -/
def edgeArr (xr xc : FVec Ideal S524288x128 .f32) (wa wb : FVec Ideal S128x256 .f32) (b1 : FVec Ideal S1x256 .f32)
    (w2 : FVec Ideal S256x256 .f32) (b2 : FVec Ideal S1x256 .f32) : FVec Ideal S524288x256 .f32 := fun i =>
  edgeAt xr xc wa wb b1 w2 b2 (⟨(i 0).val, (i 0).isLt⟩ : Fin 524288) (⟨(i 1).val, (i 1).isLt⟩ : Fin 256)

/-- The printed index maps over the 128 points: the row windows move with the point, the weights stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem tlt0 (t : Fin cfg0.N) : t.val < 128 := by have h : t.val < grid0.N := t.isLt; exact lt_of_lt_of_eq h N_0

/-- Row p of the source-row block at point t is row 4096·t + p of the array. -/
theorem blk0_0 (c : Dev nD) (t : Fin cfg0.N) (p : Fin 4096) (k : Fin 128) :
    iblk0 V c 0 t (ix2 p k) = V c main_v4 (ix2 (⟨t.val * 4096 + p.val, by have := tlt0 t; have := p.isLt; omega⟩ : Fin 524288) k) := by
  show V c main_v4 (((cfg0.win 0).blk t).view.emb (ix2 p k)) = _
  refine congrArg (V c main_v4) ?_
  obtain ⟨e0, e1, -⟩ := idx0 t
  funext a; apply Fin.ext
  match a with
  | ⟨0, _⟩ => show win0_0.index t (0 : Fin 2) * 4096 + 1 * p.val = t.val * 4096 + p.val; omega
  | ⟨1, _⟩ => show win0_0.index t (1 : Fin 2) * 128 + 1 * k.val = k.val; omega

/-- Row p of the target-row block at point t is row 4096·t + p of the array. -/
theorem blk0_1 (c : Dev nD) (t : Fin cfg0.N) (p : Fin 4096) (k : Fin 128) :
    iblk0 V c 1 t (ix2 p k) = V c main_v5 (ix2 (⟨t.val * 4096 + p.val, by have := tlt0 t; have := p.isLt; omega⟩ : Fin 524288) k) := by
  show V c main_v5 (((cfg0.win 1).blk t).view.emb (ix2 p k)) = _
  refine congrArg (V c main_v5) ?_
  obtain ⟨-, -, e0, e1, -⟩ := idx0 t
  funext a; apply Fin.ext
  match a with
  | ⟨0, _⟩ => show win0_1.index t (0 : Fin 2) * 4096 + 1 * p.val = t.val * 4096 + p.val; omega
  | ⟨1, _⟩ => show win0_1.index t (1 : Fin 2) * 128 + 1 * k.val = k.val; omega

theorem blk0_2 (c : Dev nD) (t : Fin cfg0.N) (k : Fin 128) (j : Fin 256) : iblk0 V c 2 t (ix2 k j) = V c main_v6 (ix2 k j) := by
  show V c main_v6 (((cfg0.win 2).blk t).view.emb (ix2 k j)) = _
  refine congrArg (V c main_v6) ?_
  obtain ⟨-, -, -, -, e0, e1, -⟩ := idx0 t
  funext a; apply Fin.ext
  match a with
  | ⟨0, _⟩ => show win0_2.index t (0 : Fin 2) * 128 + 1 * k.val = k.val; omega
  | ⟨1, _⟩ => show win0_2.index t (1 : Fin 2) * 256 + 1 * j.val = j.val; omega

theorem blk0_3 (c : Dev nD) (t : Fin cfg0.N) (k : Fin 128) (j : Fin 256) : iblk0 V c 3 t (ix2 k j) = V c main_v7 (ix2 k j) := by
  show V c main_v7 (((cfg0.win 3).blk t).view.emb (ix2 k j)) = _
  refine congrArg (V c main_v7) ?_
  obtain ⟨-, -, -, -, -, -, e0, e1, -⟩ := idx0 t
  funext a; apply Fin.ext
  match a with
  | ⟨0, _⟩ => show win0_3.index t (0 : Fin 2) * 128 + 1 * k.val = k.val; omega
  | ⟨1, _⟩ => show win0_3.index t (1 : Fin 2) * 256 + 1 * j.val = j.val; omega

theorem blk0_4 (c : Dev nD) (t : Fin cfg0.N) (z : Fin 1) (j : Fin 256) : iblk0 V c 4 t (ix2 z j) = V c main_v8 (ix2 z j) := by
  show V c main_v8 (((cfg0.win 4).blk t).view.emb (ix2 z j)) = _
  refine congrArg (V c main_v8) ?_
  obtain ⟨-, -, -, -, -, -, -, -, e0, e1, -⟩ := idx0 t
  funext a; apply Fin.ext
  match a with
  | ⟨0, _⟩ => show win0_4.index t (0 : Fin 2) * 1 + 1 * z.val = z.val; omega
  | ⟨1, _⟩ => show win0_4.index t (1 : Fin 2) * 256 + 1 * j.val = j.val; omega

theorem blk0_5 (c : Dev nD) (t : Fin cfg0.N) (k : Fin 256) (j : Fin 256) : iblk0 V c 5 t (ix2 k j) = V c main_arg4 (ix2 k j) := by
  show V c main_arg4 (((cfg0.win 5).blk t).view.emb (ix2 k j)) = _
  refine congrArg (V c main_arg4) ?_
  obtain ⟨-, -, -, -, -, -, -, -, -, -, e0, e1, -⟩ := idx0 t
  funext a; apply Fin.ext
  match a with
  | ⟨0, _⟩ => show win0_5.index t (0 : Fin 2) * 256 + 1 * k.val = k.val; omega
  | ⟨1, _⟩ => show win0_5.index t (1 : Fin 2) * 256 + 1 * j.val = j.val; omega

theorem blk0_6 (c : Dev nD) (t : Fin cfg0.N) (z : Fin 1) (j : Fin 256) : iblk0 V c 6 t (ix2 z j) = V c main_v9 (ix2 z j) := by
  show V c main_v9 (((cfg0.win 6).blk t).view.emb (ix2 z j)) = _
  refine congrArg (V c main_v9) ?_
  obtain ⟨-, -, -, -, -, -, -, -, -, -, -, -, e0, e1, -⟩ := idx0 t
  funext a; apply Fin.ext
  match a with
  | ⟨0, _⟩ => show win0_6.index t (0 : Fin 2) * 1 + 1 * z.val = z.val; omega
  | ⟨1, _⟩ => show win0_6.index t (1 : Fin 2) * 256 + 1 * j.val = j.val; omega

/-- What point t writes back is block t of `edgeArr` of the arrays as the launch finds them. -/
theorem flushed0_eq (c : Dev nD) (t : Fin cfg0.N) :
    (dat0 V c).flushed 7 t = ((cfg0.win 7).blk t).view.read (Elt Ideal)
      (edgeArr (V c main_v4) (V c main_v5) (V c main_v6) (V c main_v7) (V c main_v8) (V c main_arg4) (V c main_v9)) := by
  show (cfg0.win 7).cut (grid0.coords t) ((dat0 V c).after 7 t) = _
  rw [after0_7]
  funext j
  obtain ⟨p, q, rfl⟩ : ∃ (p : Fin 4096) (q : Fin 256), j = ix2 p q := ⟨j 0, j 1, eq_ix2 j⟩
  show out0_7 (iblk0 V c 0 t) (iblk0 V c 1 t) (iblk0 V c 2 t) (iblk0 V c 3 t) (iblk0 V c 4 t) (iblk0 V c 5 t) (iblk0 V c 6 t) (ix2 p q)
    = edgeArr (V c main_v4) (V c main_v5) (V c main_v6) (V c main_v7) (V c main_v8) (V c main_arg4) (V c main_v9) (((cfg0.win 7).blk t).view.emb (ix2 p q))
  refine (Cert.KernelIdeal.EdgeBody.out_apply (iblk0 V c 0 t) (iblk0 V c 1 t) (iblk0 V c 2 t) (iblk0 V c 3 t) (iblk0 V c 4 t) (iblk0 V c 5 t) (iblk0 V c 6 t) p q).trans ?_
  obtain ⟨-, -, -, -, -, -, -, -, -, -, -, -, -, -, e0, e1⟩ := idx0 t
  have hr : ((((cfg0.win 7).blk t).view.emb (ix2 p q)) 0).val = t.val * 4096 + p.val := by
    show win0_7.index t (0 : Fin 2) * 4096 + 1 * p.val = _; omega
  have hq : ((((cfg0.win 7).blk t).view.emb (ix2 p q)) 1).val = q.val := by
    show win0_7.index t (1 : Fin 2) * 256 + 1 * q.val = _; omega
  have hL : Cert.Spec.edgeEntry (fun k => iblk0 V c 0 t (ix2 p k)) (fun k => iblk0 V c 1 t (ix2 p k)) (fun k j => iblk0 V c 2 t (ix2 k j))
      (fun k j => iblk0 V c 3 t (ix2 k j)) (fun j => iblk0 V c 4 t (ix2 (0 : Fin 1) j)) (fun j q' => iblk0 V c 5 t (ix2 j q'))
      (fun q' => iblk0 V c 6 t (ix2 (0 : Fin 1) q')) q
      = edgeAt (V c main_v4) (V c main_v5) (V c main_v6) (V c main_v7) (V c main_v8) (V c main_arg4) (V c main_v9)
          (⟨t.val * 4096 + p.val, by have := tlt0 t; have := p.isLt; omega⟩ : Fin 524288) q := by
    unfold edgeAt
    simp only [blk0_0, blk0_1, blk0_2, blk0_3, blk0_4, blk0_5, blk0_6]
  refine hL.trans ?_
  exact congrArg₂ (edgeAt (V c main_v4) (V c main_v5) (V c main_v6) (V c main_v7) (V c main_v8) (V c main_arg4) (V c main_v9))
    (Fin.ext hr.symm) (Fin.ext hq.symm)

/-- An index of the message array is in point t's block iff each coordinate is in the block's range. -/
theorem mem_blk0 (t : Fin cfg0.N) (i : S524288x256.Idx) :
    i ∈ ((cfg0.win 7).blk t).view.set ↔ ∀ a : Fin 2, win0_7.index t a * S4096x256.size a ≤ (i a).val ∧ (i a).val < win0_7.index t a * S4096x256.size a + S4096x256.size a := by
  show i ∈ ((View.whole main_v10).slice (win0_7.rect t)).set ↔ _
  rw [View.set_slice_whole, Rect.mem_set_unit]
  exact Iff.rfl

/-- Every row of the message array is in the block of the point that owns it, point e / 4096. -/
theorem cover0 (i : S524288x256.Idx) : ∃ t : Fin cfg0.N, (cfg0.win 7).flush t = true ∧ i ∈ ((cfg0.win 7).blk t).view.set := by
  have hi0 : (i 0).val < 524288 := (i 0).isLt
  have hi1 : (i 1).val < 256 := (i 1).isLt
  let t : Fin cfg0.N := ⟨(i 0).val / 4096, by rw [show cfg0.N = 128 from N_0]; omega⟩
  obtain ⟨-, -, -, -, -, -, -, -, -, -, -, -, -, -, e0, e1⟩ := idx0 t
  have ht : t.val = (i 0).val / 4096 := rfl
  refine ⟨t, flush0_7 t, ?_⟩
  rw [mem_blk0]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 256 ≤ (i 1).val ∧ (i 1).val < win0_7.index t (1 : Fin 2) * 256 + 256; omega

/-- The message array after the launch. -/
theorem final0 (c : Dev nD) : (dat0 V c).arrAt 7 cfg0.N
    = edgeArr (V c main_v4) (V c main_v5) (V c main_v6) (V c main_v7) (V c main_v8) (V c main_arg4) (V c main_v9) :=
  (dat0 V c).arrAt_eq_of_cover 7 _ (fun t _ => flushed0_eq V c t) cover0

/-! ## The node launch -/

/-- Entry (n, q) of the result array from row n of the three row arrays and the weights. -/
def nodeAt (x : FVec Ideal S32768x128 .f32) (ms : FVec Ideal S32768x256 .f32) (us : FVec Ideal S32768x128 .f32)
    (wa : FVec Ideal S128x512 .f32) (wb : FVec Ideal S256x512 .f32) (wc : FVec Ideal S128x512 .f32) (b1 : FVec Ideal S1x512 .f32)
    (w2 : FVec Ideal S512x128 .f32) (b2 : FVec Ideal S1x128 .f32) (n : Fin 32768) (q : Fin 128) : EReal :=
  Cert.Spec.nodeEntry (fun k => x (ix2 n k)) (fun k => ms (ix2 n k)) (fun k => us (ix2 n k))
    (fun k j => wa (ix2 k j)) (fun k j => wb (ix2 k j)) (fun k j => wc (ix2 k j)) (fun j => b1 (ix2 (0 : Fin 1) j))
    (fun j q' => w2 (ix2 j q')) (fun q' => b2 (ix2 (0 : Fin 1) q')) q

/-- The result array as one function of the arrays the launch reads. -/
def nodeArr (x : FVec Ideal S32768x128 .f32) (ms : FVec Ideal S32768x256 .f32) (us : FVec Ideal S32768x128 .f32)
    (wa : FVec Ideal S128x512 .f32) (wb : FVec Ideal S256x512 .f32) (wc : FVec Ideal S128x512 .f32) (b1 : FVec Ideal S1x512 .f32)
    (w2 : FVec Ideal S512x128 .f32) (b2 : FVec Ideal S1x128 .f32) : FVec Ideal S32768x128 .f32 := fun i =>
  nodeAt x ms us wa wb wc b1 w2 b2 (⟨(i 0).val, (i 0).isLt⟩ : Fin 32768) (⟨(i 1).val, (i 1).isLt⟩ : Fin 128)

/-- The printed index maps over the 16 points: the row windows move with the point, the weights stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem tlt1 (t : Fin cfg1.N) : t.val < 16 := by have h : t.val < grid1.N := t.isLt; exact lt_of_lt_of_eq h N_1

theorem blk1_0 (c : Dev nD) (t : Fin cfg1.N) (p : Fin 2048) (k : Fin 128) :
    iblk1 V c 0 t (ix2 p k) = V c main_arg0 (ix2 (⟨t.val * 2048 + p.val, by have := tlt1 t; have := p.isLt; omega⟩ : Fin 32768) k) := by
  show V c main_arg0 (((cfg1.win 0).blk t).view.emb (ix2 p k)) = _
  refine congrArg (V c main_arg0) ?_
  obtain ⟨e0, e1, -⟩ := idx1 t
  funext a; apply Fin.ext
  match a with
  | ⟨0, _⟩ => show win1_0.index t (0 : Fin 2) * 2048 + 1 * p.val = t.val * 2048 + p.val; omega
  | ⟨1, _⟩ => show win1_0.index t (1 : Fin 2) * 128 + 1 * k.val = k.val; omega

theorem blk1_1 (c : Dev nD) (t : Fin cfg1.N) (p : Fin 2048) (k : Fin 256) :
    iblk1 V c 1 t (ix2 p k) = V c main_v13 (ix2 (⟨t.val * 2048 + p.val, by have := tlt1 t; have := p.isLt; omega⟩ : Fin 32768) k) := by
  show V c main_v13 (((cfg1.win 1).blk t).view.emb (ix2 p k)) = _
  refine congrArg (V c main_v13) ?_
  obtain ⟨-, -, e0, e1, -⟩ := idx1 t
  funext a; apply Fin.ext
  match a with
  | ⟨0, _⟩ => show win1_1.index t (0 : Fin 2) * 2048 + 1 * p.val = t.val * 2048 + p.val; omega
  | ⟨1, _⟩ => show win1_1.index t (1 : Fin 2) * 256 + 1 * k.val = k.val; omega

theorem blk1_2 (c : Dev nD) (t : Fin cfg1.N) (p : Fin 2048) (k : Fin 128) :
    iblk1 V c 2 t (ix2 p k) = V c main_v60 (ix2 (⟨t.val * 2048 + p.val, by have := tlt1 t; have := p.isLt; omega⟩ : Fin 32768) k) := by
  show V c main_v60 (((cfg1.win 2).blk t).view.emb (ix2 p k)) = _
  refine congrArg (V c main_v60) ?_
  obtain ⟨-, -, -, -, e0, e1, -⟩ := idx1 t
  funext a; apply Fin.ext
  match a with
  | ⟨0, _⟩ => show win1_2.index t (0 : Fin 2) * 2048 + 1 * p.val = t.val * 2048 + p.val; omega
  | ⟨1, _⟩ => show win1_2.index t (1 : Fin 2) * 128 + 1 * k.val = k.val; omega

theorem blk1_3 (c : Dev nD) (t : Fin cfg1.N) (k : Fin 128) (j : Fin 512) : iblk1 V c 3 t (ix2 k j) = V c main_v61 (ix2 k j) := by
  show V c main_v61 (((cfg1.win 3).blk t).view.emb (ix2 k j)) = _
  refine congrArg (V c main_v61) ?_
  obtain ⟨-, -, -, -, -, -, e0, e1, -⟩ := idx1 t
  funext a; apply Fin.ext
  match a with
  | ⟨0, _⟩ => show win1_3.index t (0 : Fin 2) * 128 + 1 * k.val = k.val; omega
  | ⟨1, _⟩ => show win1_3.index t (1 : Fin 2) * 512 + 1 * j.val = j.val; omega

theorem blk1_4 (c : Dev nD) (t : Fin cfg1.N) (k : Fin 256) (j : Fin 512) : iblk1 V c 4 t (ix2 k j) = V c main_v62 (ix2 k j) := by
  show V c main_v62 (((cfg1.win 4).blk t).view.emb (ix2 k j)) = _
  refine congrArg (V c main_v62) ?_
  obtain ⟨-, -, -, -, -, -, -, -, e0, e1, -⟩ := idx1 t
  funext a; apply Fin.ext
  match a with
  | ⟨0, _⟩ => show win1_4.index t (0 : Fin 2) * 256 + 1 * k.val = k.val; omega
  | ⟨1, _⟩ => show win1_4.index t (1 : Fin 2) * 512 + 1 * j.val = j.val; omega

theorem blk1_5 (c : Dev nD) (t : Fin cfg1.N) (k : Fin 128) (j : Fin 512) : iblk1 V c 5 t (ix2 k j) = V c main_v63 (ix2 k j) := by
  show V c main_v63 (((cfg1.win 5).blk t).view.emb (ix2 k j)) = _
  refine congrArg (V c main_v63) ?_
  obtain ⟨-, -, -, -, -, -, -, -, -, -, e0, e1, -⟩ := idx1 t
  funext a; apply Fin.ext
  match a with
  | ⟨0, _⟩ => show win1_5.index t (0 : Fin 2) * 128 + 1 * k.val = k.val; omega
  | ⟨1, _⟩ => show win1_5.index t (1 : Fin 2) * 512 + 1 * j.val = j.val; omega

theorem blk1_6 (c : Dev nD) (t : Fin cfg1.N) (k : Fin 1) (j : Fin 512) : iblk1 V c 6 t (ix2 k j) = V c main_v64 (ix2 k j) := by
  show V c main_v64 (((cfg1.win 6).blk t).view.emb (ix2 k j)) = _
  refine congrArg (V c main_v64) ?_
  obtain ⟨-, -, -, -, -, -, -, -, -, -, -, -, e0, e1, -⟩ := idx1 t
  funext a; apply Fin.ext
  match a with
  | ⟨0, _⟩ => show win1_6.index t (0 : Fin 2) * 1 + 1 * k.val = k.val; omega
  | ⟨1, _⟩ => show win1_6.index t (1 : Fin 2) * 512 + 1 * j.val = j.val; omega

theorem blk1_7 (c : Dev nD) (t : Fin cfg1.N) (k : Fin 512) (j : Fin 128) : iblk1 V c 7 t (ix2 k j) = V c main_arg8 (ix2 k j) := by
  show V c main_arg8 (((cfg1.win 7).blk t).view.emb (ix2 k j)) = _
  refine congrArg (V c main_arg8) ?_
  obtain ⟨-, -, -, -, -, -, -, -, -, -, -, -, -, -, e0, e1, -⟩ := idx1 t
  funext a; apply Fin.ext
  match a with
  | ⟨0, _⟩ => show win1_7.index t (0 : Fin 2) * 512 + 1 * k.val = k.val; omega
  | ⟨1, _⟩ => show win1_7.index t (1 : Fin 2) * 128 + 1 * j.val = j.val; omega

theorem blk1_8 (c : Dev nD) (t : Fin cfg1.N) (k : Fin 1) (j : Fin 128) : iblk1 V c 8 t (ix2 k j) = V c main_v65 (ix2 k j) := by
  show V c main_v65 (((cfg1.win 8).blk t).view.emb (ix2 k j)) = _
  refine congrArg (V c main_v65) ?_
  obtain ⟨-, -, -, -, -, -, -, -, -, -, -, -, -, -, -, -, e0, e1, -⟩ := idx1 t
  funext a; apply Fin.ext
  match a with
  | ⟨0, _⟩ => show win1_8.index t (0 : Fin 2) * 1 + 1 * k.val = k.val; omega
  | ⟨1, _⟩ => show win1_8.index t (1 : Fin 2) * 128 + 1 * j.val = j.val; omega

/-- What point t writes back is block t of `nodeArr` of the arrays as the launch finds them. -/
theorem flushed1_eq (c : Dev nD) (t : Fin cfg1.N) :
    (dat1 V c).flushed 9 t = ((cfg1.win 9).blk t).view.read (Elt Ideal)
      (nodeArr (V c main_arg0) (V c main_v13) (V c main_v60) (V c main_v61) (V c main_v62) (V c main_v63) (V c main_v64) (V c main_arg8) (V c main_v65)) := by
  show (cfg1.win 9).cut (grid1.coords t) ((dat1 V c).after 9 t) = _
  rw [after1_9]
  funext j
  obtain ⟨p, q, rfl⟩ : ∃ (p : Fin 2048) (q : Fin 128), j = ix2 p q := ⟨j 0, j 1, eq_ix2 j⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
    = nodeArr (V c main_arg0) (V c main_v13) (V c main_v60) (V c main_v61) (V c main_v62) (V c main_v63) (V c main_v64) (V c main_arg8) (V c main_v65) (((cfg1.win 9).blk t).view.emb (ix2 p q))
  refine (Cert.KernelIdeal.NodeBody.out_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  obtain ⟨-, -, -, -, -, -, -, -, -, -, -, -, -, -, -, -, -, -, e0, e1⟩ := idx1 t
  have hr : ((((cfg1.win 9).blk t).view.emb (ix2 p q)) 0).val = t.val * 2048 + p.val := by
    show win1_9.index t (0 : Fin 2) * 2048 + 1 * p.val = _; omega
  have hq : ((((cfg1.win 9).blk t).view.emb (ix2 p q)) 1).val = q.val := by
    show win1_9.index t (1 : Fin 2) * 128 + 1 * q.val = _; omega
  have hL : Cert.Spec.nodeEntry (fun k => iblk1 V c 0 t (ix2 p k)) (fun k => iblk1 V c 1 t (ix2 p k)) (fun k => iblk1 V c 2 t (ix2 p k))
      (fun k j => iblk1 V c 3 t (ix2 k j)) (fun k j => iblk1 V c 4 t (ix2 k j)) (fun k j => iblk1 V c 5 t (ix2 k j))
      (fun j => iblk1 V c 6 t (ix2 (0 : Fin 1) j)) (fun j q' => iblk1 V c 7 t (ix2 j q')) (fun q' => iblk1 V c 8 t (ix2 (0 : Fin 1) q')) q
      = nodeAt (V c main_arg0) (V c main_v13) (V c main_v60) (V c main_v61) (V c main_v62) (V c main_v63) (V c main_v64) (V c main_arg8) (V c main_v65)
          (⟨t.val * 2048 + p.val, by have := tlt1 t; have := p.isLt; omega⟩ : Fin 32768) q := by
    unfold nodeAt
    simp only [blk1_0, blk1_1, blk1_2, blk1_3, blk1_4, blk1_5, blk1_6, blk1_7, blk1_8]
  refine hL.trans ?_
  exact congrArg₂ (nodeAt (V c main_arg0) (V c main_v13) (V c main_v60) (V c main_v61) (V c main_v62) (V c main_v63) (V c main_v64) (V c main_arg8) (V c main_v65))
    (Fin.ext hr.symm) (Fin.ext hq.symm)

/-- An index of the result array is in point t's block iff each coordinate is in the block's range. -/
theorem mem_blk1 (t : Fin cfg1.N) (i : S32768x128.Idx) :
    i ∈ ((cfg1.win 9).blk t).view.set ↔ ∀ a : Fin 2, win1_9.index t a * S2048x128.size a ≤ (i a).val ∧ (i a).val < win1_9.index t a * S2048x128.size a + S2048x128.size a := by
  show i ∈ ((View.whole main_v66).slice (win1_9.rect t)).set ↔ _
  rw [View.set_slice_whole, Rect.mem_set_unit]
  exact Iff.rfl

/-- Every row of the result array is in the block of the point that owns it, point n / 2048. -/
theorem cover1 (i : S32768x128.Idx) : ∃ t : Fin cfg1.N, (cfg1.win 9).flush t = true ∧ i ∈ ((cfg1.win 9).blk t).view.set := by
  have hi0 : (i 0).val < 32768 := (i 0).isLt
  have hi1 : (i 1).val < 128 := (i 1).isLt
  let t : Fin cfg1.N := ⟨(i 0).val / 2048, by rw [show cfg1.N = 16 from N_1]; omega⟩
  obtain ⟨-, -, -, -, -, -, -, -, -, -, -, -, -, -, -, -, -, -, e0, e1⟩ := idx1 t
  have ht : t.val = (i 0).val / 2048 := rfl
  refine ⟨t, flush1_9 t, ?_⟩
  rw [mem_blk1]
  intro a
  match a with
  | ⟨0, _⟩ => show win1_9.index t (0 : Fin 2) * 2048 ≤ (i 0).val ∧ (i 0).val < win1_9.index t (0 : Fin 2) * 2048 + 2048; omega
  | ⟨1, _⟩ => show win1_9.index t (1 : Fin 2) * 128 ≤ (i 1).val ∧ (i 1).val < win1_9.index t (1 : Fin 2) * 128 + 128; omega

/-- The result array after the launch. -/
theorem final1 (c : Dev nD) : (dat1 V c).arrAt 9 cfg1.N
    = nodeArr (V c main_arg0) (V c main_v13) (V c main_v60) (V c main_v61) (V c main_v62) (V c main_v63) (V c main_v64) (V c main_arg8) (V c main_v65) :=
  (dat1 V c).arrAt_eq_of_cover 9 _ (fun t _ => flushed1_eq V c t) cover1

end Cert.KernelIdeal.KValue

end
-- ==== Proof.RefMlp.lean ====
/-
  The reference's two perceptrons as functions of their inputs, and what they hold at an entry.

  The reference concatenates the two gathered row arrays, multiplies by the first weight matrix, adds the bias
  (broadcast along the rows), rectifies, and does the same with the second layer; the node update concatenates
  three arrays.  `edgeR` and `nodeR` name those two stretches of the reference's term, so that the stages
  before them (the gathers, the segment sum, the cross-graph term) can be carried as opaque arguments.
  At an entry, a product is the sum over the contracted index, the concatenation picks the piece the index falls
  in, and a sum over the concatenated axis splits into the pieces' sums (`Spec.sum_split2`, `Spec.sum_split3`):
  the entry is `Spec.edgeEntry` / `Spec.nodeEntry` of the rows read.

  One rectified layer is read once for any sizes (`layer_apply`: the product's entry is the sum over the contracted
  index, the bias row contributes its entry q, the zero splat is 0), the concatenations once per piece
  (`cat2_left`, `cat2_right`; `cat3_first`, `cat3_second`, `cat3_third`); the two perceptrons are two layers each,
  the inner one's sum split at the pieces' boundaries.
-/
import proofs.«423965_j5583457485044_1_alg».proof.Proof.RefRead
import proofs.«423965_j5583457485044_1_alg».proof.Proof.Spec
import proofs.«423965_j5583457485044_1_alg».proof.Proof.LibPlainRows

noncomputable section

namespace Cert.ReferenceIdeal.RefMlp

open Idealize.ShloMosaic Idealize.ShloMosaic.ValueIdx Cert.ReferenceIdeal Cert.ReferenceIdeal.Gen

variable {F : FTy → Type} [FloatOps F]

/-- The message perceptron over the two gathered row arrays. -/
def edgeR (xr xc : FVec F S524288x128 .f32) (W1 : FVec F S256x256 .f32) (b1 : FVec F S256 .f32)
    (W2 : FVec F S256x256 .f32) (b2 : FVec F S256 .f32) : FVec F S524288x256 .f32 :=
  maximumf (addf (Host.dotGeneral dot_S524288x256_S256x256_S524288x256_1_0_0_1_n_n none
      (maximumf (addf (Host.dotGeneral dot_S524288x256_S256x256_S524288x256_1_0_0_1_n_n none
          (concatenate S524288x256 1 [⟨S524288x128, xr⟩, ⟨S524288x128, xc⟩] concatenates_S524288x128_S524288x128_S524288x256_d1) W1)
        (broadcastInDim S524288x256 ![0, 1] bcast_S1x256_S524288x256_0_1 (broadcastInDim S1x256 ![1] bcast_S256_S1x256_1 b1)))
        (broadcastInDim S524288x256 ![] bcast_S_S524288x256 (constant S_ .f32 0x00000000#32))) W2)
      (broadcastInDim S524288x256 ![0, 1] bcast_S1x256_S524288x256_0_1 (broadcastInDim S1x256 ![1] bcast_S256_S1x256_1 b2)))
    (broadcastInDim S524288x256 ![] bcast_S_S524288x256 (constant S_ .f32 0x00000000#32))

/-- The node perceptron over the node rows, the summed messages and the cross-graph term. -/
def nodeR (x : FVec F S32768x128 .f32) (ms : FVec F S32768x256 .f32) (us : FVec F S32768x128 .f32)
    (W1 : FVec F S512x512 .f32) (b1 : FVec F S512 .f32) (W2 : FVec F S512x128 .f32) (b2 : FVec F S128 .f32) :
    FVec F S32768x128 .f32 :=
  maximumf (addf (Host.dotGeneral dot_S32768x512_S512x128_S32768x128_1_0_0_1_n_n none
      (maximumf (addf (Host.dotGeneral dot_S32768x512_S512x512_S32768x512_1_0_0_1_n_n none
          (concatenate S32768x512 1 [⟨S32768x128, x⟩, ⟨S32768x256, ms⟩, ⟨S32768x128, us⟩] concatenates_S32768x128_S32768x256_S32768x128_S32768x512_d1) W1)
        (broadcastInDim S32768x512 ![0, 1] bcast_S1x512_S32768x512_0_1 (broadcastInDim S1x512 ![1] bcast_S512_S1x512_1 b1)))
        (broadcastInDim S32768x512 ![] bcast_S_S32768x512 (constant S_ .f32 0x00000000#32))) W2)
      (broadcastInDim S32768x128 ![0, 1] bcast_S1x128_S32768x128_0_1 (broadcastInDim S1x128 ![1] bcast_S128_S1x128_1 b2)))
    (broadcastInDim S32768x128 ![] bcast_S_S32768x128 (constant S_ .f32 0x00000000#32))

/-- The reference's messages are `edgeR` of its two gathers. -/
theorem val_main_v28_eq (x0 : FVec F S32768x128 .f32) (x1 : IVec S2x524288 32) (x2 : FVec F S256x256 .f32)
    (x3 : FVec F S256 .f32) (x4 : FVec F S256x256 .f32) (x5 : FVec F S256 .f32) :
    ReadP.val_main_v28 (F := F) x0 x1 x2 x3 x4 x5
      = edgeR (ReadP.val_main_v10 (F := F) x0 x1) (ReadP.val_main_v17 (F := F) x0 x1) x2 x3 x4 x5 := by
  unfold ReadP.val_main_v28 ReadP.val_main_v27 ReadP.val_main_v26 ReadP.val_main_v25 ReadP.val_main_v24
    ReadP.val_main_v23 ReadP.val_main_v22 ReadP.val_main_v21 ReadP.val_main_v20 ReadP.val_main_v19
    ReadP.val_main_v18 ReadP.val_main_call0_v0 ReadP.val_main_call0_cst ReadP.val_main_call1_v0
    ReadP.val_main_call1_cst edgeR
  rfl

/-- The reference's result is `nodeR` of the node rows, the segment sum and the cross-graph term. -/
theorem val_main_v89_eq (x0 : FVec F S32768x128 .f32) (x1 : IVec S2x524288 32) (x2 : FVec F S256x256 .f32)
    (x3 : FVec F S256 .f32) (x4 : FVec F S256x256 .f32) (x5 : FVec F S256 .f32) (x6 : FVec F S512x512 .f32)
    (x7 : FVec F S512 .f32) (x8 : FVec F S512x128 .f32) (x9 : FVec F S128 .f32) :
    ReadP.val_main_v89 (F := F) x0 x1 x2 x3 x4 x5 x6 x7 x8 x9
      = nodeR x0 (ReadP.val_main_v31 (F := F) x0 x1 x2 x3 x4 x5) (ReadP.val_main_v78 (F := F) x0) x6 x7 x8 x9 := by
  unfold ReadP.val_main_v89 ReadP.val_main_v88 ReadP.val_main_v87 ReadP.val_main_v86 ReadP.val_main_v85
    ReadP.val_main_v84 ReadP.val_main_v83 ReadP.val_main_v82 ReadP.val_main_v81 ReadP.val_main_v80
    ReadP.val_main_v79 ReadP.val_main_call4_v0 ReadP.val_main_call4_cst ReadP.val_main_call5_v0
    ReadP.val_main_call5_cst nodeR
  rfl

/-! ## The pieces of a layer, read at an entry -/

/-- The zero splat at any index is the extended real zero. -/
theorem zeroSplat_apply {t : Shape} (h : S_.BroadcastsInDim t (![] : Fin 0 → Fin t.rank)) (i : t.Idx) :
    broadcastInDim t ![] h (constant (F := Ideal) S_ .f32 0x00000000#32) i = (0 : EReal) :=
  (broadcastInDim_apply ![] h (constant (F := Ideal) S_ .f32 0x00000000#32) i ix0 (fun a => a.elim0)).trans
    Ideal.ofBits_zero_f32

/-- One rectified layer at entry (p, q): the row of the input against column q of the weights, plus the bias,
    floored at zero. -/
theorem layer_apply {m k n : Nat} (d : DotDims ⟨2, ![m, k]⟩ ⟨2, ![k, n]⟩ ⟨2, ![m, n]⟩) (hd : d = DotDims.plain m k n)
    (A : FVec Ideal ⟨2, ![m, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (h0 : S_.BroadcastsInDim ⟨2, ![m, n]⟩ (![] : Fin 0 → Fin 2)) (p : Fin m) (q : Fin n) :
    maximumf (addf (Host.dotGeneral d none A W)
        (broadcastInDim ⟨2, ![m, n]⟩ ![0, 1] h2 (broadcastInDim ⟨2, ![1, n]⟩ ![1] h1 b)))
      (broadcastInDim ⟨2, ![m, n]⟩ ![] h0 (constant (F := Ideal) S_ .f32 0x00000000#32)) (ix2 p q)
      = max (∑ c : Fin k, A (ix2 p c) * W (ix2 c q) + b (ix1 q)) 0 := by
  show max (Host.dotGeneral d none A W (ix2 p q)
      + broadcastInDim ⟨2, ![m, n]⟩ ![0, 1] h2 (broadcastInDim ⟨2, ![1, n]⟩ ![1] h1 b) (ix2 p q))
    (broadcastInDim ⟨2, ![m, n]⟩ ![] h0 (constant (F := Ideal) S_ .f32 0x00000000#32) (ix2 p q)) = _
  rw [PlainRows.dotGeneral_rows_apply d hd none A W p q, PlainRows.rowBroadcast_apply b h1 h2 p q, zeroSplat_apply]

/-! ## The concatenations along the columns, read at an entry -/

section Cat
variable {α : Type}

/-- Two arrays of 128 columns side by side: a column below 128 is the first array's. -/
theorem cat2_left (x₁ x₂ : S524288x128.Idx → α) (e : Fin 524288) (k : Fin 128) :
    concatenate S524288x256 1 [⟨S524288x128, x₁⟩, ⟨S524288x128, x₂⟩]
        concatenates_S524288x128_S524288x128_S524288x256_d1
        (ix2 e (⟨k.val, by have := k.isLt; omega⟩ : Fin 256)) = x₁ (ix2 e k) := by
  refine concatenate_pair_apply_left (t := S524288x256) 1 x₁ x₂ concatenates_S524288x128_S524288x128_S524288x256_d1
    (ix2 e (⟨k.val, by have := k.isLt; omega⟩ : Fin 256)) rfl (ix2 e k) ?_
  intro b
  match b with
  | ⟨0, _⟩ => rfl
  | ⟨1, _⟩ => rfl

/-- A column from 128 on is the second array's, 128 less. -/
theorem cat2_right (x₁ x₂ : S524288x128.Idx → α) (e : Fin 524288) (k : Fin 128) :
    concatenate S524288x256 1 [⟨S524288x128, x₁⟩, ⟨S524288x128, x₂⟩]
        concatenates_S524288x128_S524288x128_S524288x256_d1
        (ix2 e (⟨128 + k.val, by have := k.isLt; omega⟩ : Fin 256)) = x₂ (ix2 e k) := by
  refine concatenate_pair_apply_right (t := S524288x256) 1 x₁ x₂ concatenates_S524288x128_S524288x128_S524288x256_d1
    (ix2 e (⟨128 + k.val, by have := k.isLt; omega⟩ : Fin 256)) rfl rfl (ix2 e k) ?_ ?_
  · intro b hb
    match b with
    | ⟨0, _⟩ => rfl
    | ⟨1, _⟩ => exact absurd rfl hb
  · show k.val + 128 = 128 + k.val
    omega

/-- Three arrays of 128, 256 and 128 columns side by side: a column below 128 is the first array's. -/
theorem cat3_first (x₁ : S32768x128.Idx → α) (x₂ : S32768x256.Idx → α) (x₃ : S32768x128.Idx → α)
    (n : Fin 32768) (k : Fin 128) :
    concatenate S32768x512 1 [⟨S32768x128, x₁⟩, ⟨S32768x256, x₂⟩, ⟨S32768x128, x₃⟩]
        concatenates_S32768x128_S32768x256_S32768x128_S32768x512_d1
        (ix2 n (⟨k.val, by have := k.isLt; omega⟩ : Fin 512)) = x₁ (ix2 n k) := by
  refine concatenate_apply_piece (t := S32768x512) 1 [⟨S32768x128, x₁⟩, ⟨S32768x256, x₂⟩, ⟨S32768x128, x₃⟩]
    concatenates_S32768x128_S32768x256_S32768x128_S32768x512_d1 (ix2 n (⟨k.val, by have := k.isLt; omega⟩ : Fin 512))
    0 (show (0 : Nat) < 3 by omega) S32768x128 x₁ rfl rfl 0 rfl (ix2 n k) ?_ ?_
  · intro b hb
    match b with
    | ⟨0, _⟩ => rfl
    | ⟨1, _⟩ => exact absurd rfl hb
  · show 0 + k.val = k.val
    omega

/-- A column from 128 up to 384 is the second array's, 128 less. -/
theorem cat3_second (x₁ : S32768x128.Idx → α) (x₂ : S32768x256.Idx → α) (x₃ : S32768x128.Idx → α)
    (n : Fin 32768) (k : Fin 256) :
    concatenate S32768x512 1 [⟨S32768x128, x₁⟩, ⟨S32768x256, x₂⟩, ⟨S32768x128, x₃⟩]
        concatenates_S32768x128_S32768x256_S32768x128_S32768x512_d1
        (ix2 n (⟨128 + k.val, by have := k.isLt; omega⟩ : Fin 512)) = x₂ (ix2 n k) := by
  refine concatenate_apply_piece (t := S32768x512) 1 [⟨S32768x128, x₁⟩, ⟨S32768x256, x₂⟩, ⟨S32768x128, x₃⟩]
    concatenates_S32768x128_S32768x256_S32768x128_S32768x512_d1 (ix2 n (⟨128 + k.val, by have := k.isLt; omega⟩ : Fin 512))
    1 (show (1 : Nat) < 3 by omega) S32768x256 x₂ rfl rfl 128 rfl (ix2 n k) ?_ ?_
  · intro b hb
    match b with
    | ⟨0, _⟩ => rfl
    | ⟨1, _⟩ => exact absurd rfl hb
  · rfl

/-- A column from 384 on is the third array's, 384 less. -/
theorem cat3_third (x₁ : S32768x128.Idx → α) (x₂ : S32768x256.Idx → α) (x₃ : S32768x128.Idx → α)
    (n : Fin 32768) (k : Fin 128) :
    concatenate S32768x512 1 [⟨S32768x128, x₁⟩, ⟨S32768x256, x₂⟩, ⟨S32768x128, x₃⟩]
        concatenates_S32768x128_S32768x256_S32768x128_S32768x512_d1
        (ix2 n (⟨384 + k.val, by have := k.isLt; omega⟩ : Fin 512)) = x₃ (ix2 n k) := by
  refine concatenate_apply_piece (t := S32768x512) 1 [⟨S32768x128, x₁⟩, ⟨S32768x256, x₂⟩, ⟨S32768x128, x₃⟩]
    concatenates_S32768x128_S32768x256_S32768x128_S32768x512_d1 (ix2 n (⟨384 + k.val, by have := k.isLt; omega⟩ : Fin 512))
    2 (show (2 : Nat) < 3 by omega) S32768x128 x₃ rfl rfl 384 rfl (ix2 n k) ?_ ?_
  · intro b hb
    match b with
    | ⟨0, _⟩ => rfl
    | ⟨1, _⟩ => exact absurd rfl hb
  · rfl

end Cat

/-! ## The two perceptrons at an entry -/

/-- `edgeR` at entry (e, q). -/
theorem edgeR_apply (xr xc : FVec Ideal S524288x128 .f32) (W1 : FVec Ideal S256x256 .f32) (b1 : FVec Ideal S256 .f32)
    (W2 : FVec Ideal S256x256 .f32) (b2 : FVec Ideal S256 .f32) (e : Fin 524288) (q : Fin 256) :
    edgeR (F := Ideal) xr xc W1 b1 W2 b2 (ix2 e q)
      = Cert.Spec.edgeEntry (fun k => xr (ix2 e k)) (fun k => xc (ix2 e k))
          (fun k j => W1 (ix2 (⟨k.val, by have := k.isLt; omega⟩ : Fin 256) j))
          (fun k j => W1 (ix2 (⟨128 + k.val, by have := k.isLt; omega⟩ : Fin 256) j))
          (fun j => b1 (ix1 j)) (fun j q' => W2 (ix2 j q')) (fun q' => b2 (ix1 q')) q := by
  unfold edgeR Cert.Spec.edgeEntry
  refine (layer_apply _ rfl _ W2 b2 _ _ _ e q).trans ?_
  refine congrArg (fun s : EReal => max (s + b2 (ix1 q)) 0) ?_
  refine Finset.sum_congr rfl fun j _ => ?_
  refine congrArg (fun s : EReal => s * W2 (ix2 j q)) ?_
  refine (layer_apply _ rfl _ W1 b1 _ _ _ e j).trans ?_
  refine congrArg (fun s : EReal => max (s + b1 (ix1 j)) 0) ?_
  refine (Cert.Spec.sum_split2 _).trans ?_
  refine congrArg₂ (· + ·) (Finset.sum_congr rfl fun k _ => ?_) (Finset.sum_congr rfl fun k _ => ?_)
  · rw [cat2_left]
  · rw [cat2_right]

/-- `nodeR` at entry (n, q). -/
theorem nodeR_apply (x : FVec Ideal S32768x128 .f32) (ms : FVec Ideal S32768x256 .f32) (us : FVec Ideal S32768x128 .f32)
    (W1 : FVec Ideal S512x512 .f32) (b1 : FVec Ideal S512 .f32) (W2 : FVec Ideal S512x128 .f32) (b2 : FVec Ideal S128 .f32)
    (n : Fin 32768) (q : Fin 128) :
    nodeR (F := Ideal) x ms us W1 b1 W2 b2 (ix2 n q)
      = Cert.Spec.nodeEntry (fun k => x (ix2 n k)) (fun k => ms (ix2 n k)) (fun k => us (ix2 n k))
          (fun k j => W1 (ix2 (⟨k.val, by have := k.isLt; omega⟩ : Fin 512) j))
          (fun k j => W1 (ix2 (⟨128 + k.val, by have := k.isLt; omega⟩ : Fin 512) j))
          (fun k j => W1 (ix2 (⟨384 + k.val, by have := k.isLt; omega⟩ : Fin 512) j))
          (fun j => b1 (ix1 j)) (fun j q' => W2 (ix2 j q')) (fun q' => b2 (ix1 q')) q := by
  unfold nodeR Cert.Spec.nodeEntry
  refine (layer_apply _ rfl _ W2 b2 _ _ _ n q).trans ?_
  refine congrArg (fun s : EReal => max (s + b2 (ix1 q)) 0) ?_
  refine Finset.sum_congr rfl fun j _ => ?_
  refine congrArg (fun s : EReal => s * W2 (ix2 j q)) ?_
  refine (layer_apply _ rfl _ W1 b1 _ _ _ n j).trans ?_
  refine congrArg (fun s : EReal => max (s + b1 (ix1 j)) 0) ?_
  refine (Cert.Spec.sum_split3 _).trans ?_
  refine congrArg₂ (· + ·) (congrArg₂ (· + ·) (Finset.sum_congr rfl fun k _ => ?_) (Finset.sum_congr rfl fun k _ => ?_))
    (Finset.sum_congr rfl fun k _ => ?_)
  · rw [cat3_first]
  · rw [cat3_second]
  · rw [cat3_third]

end Cert.ReferenceIdeal.RefMlp

end
-- ==== Proof.Bridge.lean ====
/-
  The kernel program's result is the reference's, array by array.

  Under the precondition every edge endpoint is a node number, so the kernel program's gathers never take their fill
  value and read the rows the reference's gathers read.  The edge launch's output, assembled from its blocks, is
  the reference's message perceptron of those rows: the kernel's two half-products add up to the reference's product
  with the concatenation (a sum over 256 indices split at 128), the weight slices are rows 0…127 and 128…255 of the
  weight matrix, and a bias cast to one row and broadcast is the bias broadcast along the rows.  Both programs then
  apply the SAME scatter-add along the source nodes and the SAME cross-graph term to the node rows, and the node
  launch's output is the reference's node perceptron for the same reason as the edge launch's (512 = 128 + 256 + 128).
-/
import proofs.«423965_j5583457485044_1_alg».proof.Proof.KernelRun
import proofs.«423965_j5583457485044_1_alg».proof.Proof.KernelFold
import proofs.«423965_j5583457485044_1_alg».proof.Proof.KernelValue
import proofs.«423965_j5583457485044_1_alg».proof.Proof.RefMlp
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Take Cert.KernelIdeal.Fold Cert.KernelIdeal.KValue
open Idealize.ShloMosaic Idealize.ShloMosaic.TcCoe Idealize.ShloMosaic.ValueIdx Idealize.SL.Sem Idealize.ShloMosaic.StableHlo

/-! ## Slices of a weight matrix and a bias as one row, read at an entry -/

section Layout
variable {α : Type}

theorem slice_rows {R C r : Nat} (off : Nat) (W : (⟨2, ![R, C]⟩ : Shape).Idx → α)
    (h : (⟨2, ![R, C]⟩ : Shape).Slices ![off, 0] ⟨2, ![r, C]⟩) (k : Fin r) (j : Fin C) (hk : off + k.val < R) :
    extractStridedSlice ⟨2, ![r, C]⟩ ![off, 0] W h (ix2 k j) = W (ix2 (⟨off + k.val, hk⟩ : Fin R) j) := by
  refine extractStridedSlice_apply ![off, 0] W h (ix2 k j) (ix2 (⟨off + k.val, hk⟩ : Fin R) j) ?_
  intro a
  match a with
  | ⟨0, _⟩ => rfl
  | ⟨1, _⟩ => show j.val = 0 + j.val; omega

theorem bias_row {n : Nat} (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) := by
  refine shapeCast_apply b h (ix2 (0 : Fin 1) j) (ix1 j) ?_
  rw [Shape.rowMajor_val_two, Shape.rowMajor_val_one]
  show j.val = 0 * n + j.val
  omega

end Layout

/-! ## The two perceptrons: the kernel side's whole-array functions are the reference's terms -/

theorem edgeArr_eq_edgeR (xr xc : FVec Ideal S524288x128 .f32) (W1 : FVec Ideal S256x256 .f32) (b1 : FVec Ideal S256 .f32)
    (W2 : FVec Ideal S256x256 .f32) (b2 : FVec Ideal S256 .f32) :
    edgeArr xr xc (extractStridedSlice S128x256 ![0, 0] W1 slices_S256x256_S128x256_0_0)
        (extractStridedSlice S128x256 ![128, 0] W1 slices_S256x256_S128x256_128_0)
        (shapeCast S1x256 b1 shapeCasts_S256_S1x256) W2 (shapeCast S1x256 b2 shapeCasts_S256_S1x256)
      = Cert.ReferenceIdeal.RefMlp.edgeR (F := Ideal) xr xc W1 b1 W2 b2 := by
  funext i
  obtain ⟨e, q, rfl⟩ : ∃ (e : Fin 524288) (q : Fin 256), i = ix2 e q := ⟨i 0, i 1, eq_ix2 i⟩
  refine Eq.trans ?_ (Cert.ReferenceIdeal.RefMlp.edgeR_apply xr xc W1 b1 W2 b2 e q).symm
  show Cert.Spec.edgeEntry (fun k => xr (ix2 e k)) (fun k => xc (ix2 e k))
      (fun k j => extractStridedSlice S128x256 ![0, 0] W1 slices_S256x256_S128x256_0_0 (ix2 k j))
      (fun k j => extractStridedSlice S128x256 ![128, 0] W1 slices_S256x256_S128x256_128_0 (ix2 k j))
      (fun j => shapeCast S1x256 b1 shapeCasts_S256_S1x256 (ix2 (0 : Fin 1) j)) (fun j q' => W2 (ix2 j q'))
      (fun q' => shapeCast S1x256 b2 shapeCasts_S256_S1x256 (ix2 (0 : Fin 1) q')) q = _
  have hA : ∀ (k : Fin 128) (j : Fin 256), extractStridedSlice S128x256 ![0, 0] W1 slices_S256x256_S128x256_0_0 (ix2 k j)
      = W1 (ix2 (⟨k.val, by have := k.isLt; omega⟩ : Fin 256) j) := fun k j =>
    (slice_rows 0 W1 slices_S256x256_S128x256_0_0 k j (by have := k.isLt; omega)).trans
      (congrArg (fun r : Fin 256 => W1 (ix2 r j)) (Fin.ext (by show 0 + k.val = k.val; omega)))
  have hB : ∀ (k : Fin 128) (j : Fin 256), extractStridedSlice S128x256 ![128, 0] W1 slices_S256x256_S128x256_128_0 (ix2 k j)
      = W1 (ix2 (⟨128 + k.val, by have := k.isLt; omega⟩ : Fin 256) j) := fun k j =>
    slice_rows 128 W1 slices_S256x256_S128x256_128_0 k j (by have := k.isLt; omega)
  have h1 : ∀ j : Fin 256, shapeCast S1x256 b1 shapeCasts_S256_S1x256 (ix2 (0 : Fin 1) j) = b1 (ix1 j) := fun j => bias_row b1 _ j
  have h2 : ∀ j : Fin 256, shapeCast S1x256 b2 shapeCasts_S256_S1x256 (ix2 (0 : Fin 1) j) = b2 (ix1 j) := fun j => bias_row b2 _ j
  simp only [hA, hB, h1, h2]

theorem nodeArr_eq_nodeR (x : FVec Ideal S32768x128 .f32) (ms : FVec Ideal S32768x256 .f32) (us : FVec Ideal S32768x128 .f32)
    (W1 : FVec Ideal S512x512 .f32) (b1 : FVec Ideal S512 .f32) (W2 : FVec Ideal S512x128 .f32) (b2 : FVec Ideal S128 .f32) :
    nodeArr x ms us (extractStridedSlice S128x512 ![0, 0] W1 slices_S512x512_S128x512_0_0)
        (extractStridedSlice S256x512 ![128, 0] W1 slices_S512x512_S256x512_128_0)
        (extractStridedSlice S128x512 ![384, 0] W1 slices_S512x512_S128x512_384_0)
        (shapeCast S1x512 b1 shapeCasts_S512_S1x512) W2 (shapeCast S1x128 b2 shapeCasts_S128_S1x128)
      = Cert.ReferenceIdeal.RefMlp.nodeR (F := Ideal) x ms us W1 b1 W2 b2 := by
  funext i
  obtain ⟨n, q, rfl⟩ : ∃ (n : Fin 32768) (q : Fin 128), i = ix2 n q := ⟨i 0, i 1, eq_ix2 i⟩
  refine Eq.trans ?_ (Cert.ReferenceIdeal.RefMlp.nodeR_apply x ms us W1 b1 W2 b2 n q).symm
  show Cert.Spec.nodeEntry (fun k => x (ix2 n k)) (fun k => ms (ix2 n k)) (fun k => us (ix2 n k))
      (fun k j => extractStridedSlice S128x512 ![0, 0] W1 slices_S512x512_S128x512_0_0 (ix2 k j))
      (fun k j => extractStridedSlice S256x512 ![128, 0] W1 slices_S512x512_S256x512_128_0 (ix2 k j))
      (fun k j => extractStridedSlice S128x512 ![384, 0] W1 slices_S512x512_S128x512_384_0 (ix2 k j))
      (fun j => shapeCast S1x512 b1 shapeCasts_S512_S1x512 (ix2 (0 : Fin 1) j)) (fun j q' => W2 (ix2 j q'))
      (fun q' => shapeCast S1x128 b2 shapeCasts_S128_S1x128 (ix2 (0 : Fin 1) q')) q = _
  have hA : ∀ (k : Fin 128) (j : Fin 512), extractStridedSlice S128x512 ![0, 0] W1 slices_S512x512_S128x512_0_0 (ix2 k j)
      = W1 (ix2 (⟨k.val, by have := k.isLt; omega⟩ : Fin 512) j) := fun k j =>
    (slice_rows 0 W1 slices_S512x512_S128x512_0_0 k j (by have := k.isLt; omega)).trans
      (congrArg (fun r : Fin 512 => W1 (ix2 r j)) (Fin.ext (by show 0 + k.val = k.val; omega)))
  have hB : ∀ (k : Fin 256) (j : Fin 512), extractStridedSlice S256x512 ![128, 0] W1 slices_S512x512_S256x512_128_0 (ix2 k j)
      = W1 (ix2 (⟨128 + k.val, by have := k.isLt; omega⟩ : Fin 512) j) := fun k j =>
    slice_rows 128 W1 slices_S512x512_S256x512_128_0 k j (by have := k.isLt; omega)
  have hC : ∀ (k : Fin 128) (j : Fin 512), extractStridedSlice S128x512 ![384, 0] W1 slices_S512x512_S128x512_384_0 (ix2 k j)
      = W1 (ix2 (⟨384 + k.val, by have := k.isLt; omega⟩ : Fin 512) j) := fun k j =>
    slice_rows 384 W1 slices_S512x512_S128x512_384_0 k j (by have := k.isLt; omega)
  have h1 : ∀ j : Fin 512, shapeCast S1x512 b1 shapeCasts_S512_S1x512 (ix2 (0 : Fin 1) j) = b1 (ix1 j) := fun j => bias_row b1 _ j
  have h2 : ∀ j : Fin 128, shapeCast S1x128 b2 shapeCasts_S128_S1x128 (ix2 (0 : Fin 1) j) = b2 (ix1 j) := fun j => bias_row b2 _ j
  simp only [hA, hB, hC, h1, h2]

/-! ## The host stages the two programs share, matched (at any float values) -/

section Shared
variable {F : FTy → Type} [FloatOps F]

/-- The plain gather at the wrapped source indices is the reference's first gather. -/
theorem gather_row_eq (x : FVec F S32768x128 .f32) (ei : IVec S2x524288 32) :
    Host.gather gather_S32768x128_S524288x1_S524288x128_1_0_n_n_0_1_1128 x (wrapCol (rowOf ei))
      = Cert.ReferenceIdeal.ReadP.val_main_v10 (F := F) x ei := rfl

/-- The plain gather at the wrapped target indices is the reference's second gather. -/
theorem gather_col_eq (x : FVec F S32768x128 .f32) (ei : IVec S2x524288 32) :
    Host.gather gather_S32768x128_S524288x1_S524288x128_1_0_n_n_0_1_1128 x (wrapCol (colOf ei))
      = Cert.ReferenceIdeal.ReadP.val_main_v17 (F := F) x ei := rfl

/-- The scatter-add of a message array along the source nodes is the reference's segment sum of it. -/
theorem scatter_eq (ei : IVec S2x524288 32) (mm : FVec F S524288x256 .f32) :
    Host.scatterAdd scatter_S32768x256_S524288x1_S524288x256_1_0_0_1
        (broadcastInDim S32768x256 ![] bcast_S_S32768x256 (constant (F := F) S_ .f32 0x00000000#32))
        (broadcastInDim S524288x1 ![0] bcast_S524288_S524288x1_0 (rowOf ei)) mm
      = Host.scatterAdd Cert.ReferenceIdeal.scatter_S32768x256_S524288x1_S524288x256_1_0_0_1 (Cert.ReferenceIdeal.ReadP.val_main_v29 (F := F))
          (Cert.ReferenceIdeal.ReadP.val_main_v30 (F := F) ei) mm := rfl

variable (m : (ℓ : Loc nD τ sig) → Buf (Elt F) ℓ) (ρ : Dev nD → PrngReg)

set_option maxHeartbeats 40000000 in
/-- The cross-graph term the second launch reads is the reference's, of the node rows. -/
theorem V10_v60 (c : Dev nD) : (V10 m ρ c main_v60 : FVec F S32768x128 .f32) = Cert.ReferenceIdeal.ReadP.val_main_v78 (F := F) (xA m c) := by
  rw [show xA m c = W5 m ρ c (Proc.devRef .tc main_arg0) from (W5_main_arg0 m ρ c).symm]
  show StableHlo.after hostOps1_4 (StableHlo.after hostOps1_3 (StableHlo.after hostOps1_2 (StableHlo.after hostOps1_1 (StableHlo.after hostOps1 (W5 m ρ c))))) (Proc.devRef .tc main_v60) = _
  after_results_simp
  simp only [TRef.ofBuf, TRef.toBuf, cast_eq]
  generalize W5 m ρ c (Proc.devRef .tc main_arg0) = x
  unfold Cert.ReferenceIdeal.ReadP.val_main_v78 Cert.ReferenceIdeal.ReadP.val_main_v77 Cert.ReferenceIdeal.ReadP.val_main_v76 Cert.ReferenceIdeal.ReadP.val_main_v75 Cert.ReferenceIdeal.ReadP.val_main_v74 Cert.ReferenceIdeal.ReadP.val_main_v73 Cert.ReferenceIdeal.ReadP.val_main_v72 Cert.ReferenceIdeal.ReadP.val_main_v71 Cert.ReferenceIdeal.ReadP.val_main_v70 Cert.ReferenceIdeal.ReadP.val_main_v69 Cert.ReferenceIdeal.ReadP.val_main_v68 Cert.ReferenceIdeal.ReadP.val_main_v67 Cert.ReferenceIdeal.ReadP.val_main_cst_10 Cert.ReferenceIdeal.ReadP.val_main_v66 Cert.ReferenceIdeal.ReadP.val_main_v65 Cert.ReferenceIdeal.ReadP.val_main_v64 Cert.ReferenceIdeal.ReadP.val_main_v63 Cert.ReferenceIdeal.ReadP.val_main_v62 Cert.ReferenceIdeal.ReadP.val_main_v61 Cert.ReferenceIdeal.ReadP.val_main_cst_9 Cert.ReferenceIdeal.ReadP.val_main_v60 Cert.ReferenceIdeal.ReadP.val_main_cst_8 Cert.ReferenceIdeal.ReadP.val_main_v59 Cert.ReferenceIdeal.ReadP.val_main_v58 Cert.ReferenceIdeal.ReadP.val_main_v57 Cert.ReferenceIdeal.ReadP.val_main_v56 Cert.ReferenceIdeal.ReadP.val_main_v55 Cert.ReferenceIdeal.ReadP.val_main_cst_7 Cert.ReferenceIdeal.ReadP.val_main_v54 Cert.ReferenceIdeal.ReadP.val_main_v53 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_cst_6 Cert.ReferenceIdeal.ReadP.val_main_v48 Cert.ReferenceIdeal.ReadP.val_main_cst_5 Cert.ReferenceIdeal.ReadP.val_main_v47 Cert.ReferenceIdeal.ReadP.val_main_v46 Cert.ReferenceIdeal.ReadP.val_main_v45 Cert.ReferenceIdeal.ReadP.val_main_v44 Cert.ReferenceIdeal.ReadP.val_main_v43 Cert.ReferenceIdeal.ReadP.val_main_cst_4 Cert.ReferenceIdeal.ReadP.val_main_v42 Cert.ReferenceIdeal.ReadP.val_main_call3_v2 Cert.ReferenceIdeal.ReadP.val_main_call3_v1 Cert.ReferenceIdeal.ReadP.val_main_call3_cst Cert.ReferenceIdeal.ReadP.val_main_call3_v0 Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_cst_3 Cert.ReferenceIdeal.ReadP.val_main_v37 Cert.ReferenceIdeal.ReadP.val_main_call2_v2 Cert.ReferenceIdeal.ReadP.val_main_call2_v1 Cert.ReferenceIdeal.ReadP.val_main_call2_cst Cert.ReferenceIdeal.ReadP.val_main_call2_v0 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32
  rfl

end Shared

/-! ## The kernel program's arrays are the reference's stages -/

section Result
variable (m : (ℓ : Loc nD τ sig) → Buf (Elt Ideal) ℓ) (ρ : Dev nD → PrngReg)

/-- The edge launch's output array is the reference's message array. -/
theorem messages_eq (c : Dev nD) (hr : ∀ i : S2x524288.Idx, 0 ≤ (eiA m c i).toInt ∧ (eiA m c i).toInt < 32768) :
    (W5 m ρ c (Proc.devRef .tc main_v10) : FVec Ideal S524288x256 .f32)
      = Cert.ReferenceIdeal.ReadP.val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hrow : ∀ e : S524288.Idx, 0 ≤ (rowOf (eiA m c) e).toInt ∧ (rowOf (eiA m c) e).toInt < 32768 := fun e => by
    obtain ⟨e', rfl⟩ : ∃ e' : Fin 524288, e = ix1 e' := ⟨e 0, eq_ix1 e⟩
    rw [rowOf_apply]; exact hr _
  have hcol : ∀ e : S524288.Idx, 0 ≤ (colOf (eiA m c) e).toInt ∧ (colOf (eiA m c) e).toInt < 32768 := fun e => by
    obtain ⟨e', rfl⟩ : ∃ e' : Fin 524288, e = ix1 e' := ⟨e 0, eq_ix1 e⟩
    rw [colOf_apply]; exact hr _
  refine (W5_arr m ρ c 7).trans ((final0 (V4 m ρ) c).trans ?_)
  rw [V4_v4, V4_v5, V4_v6, V4_v7, V4_v8, V4_arg4, V4_v9, takeK_eq_gather _ _ hrow, takeK_eq_gather _ _ hcol,
    gather_row_eq, gather_col_eq, edgeArr_eq_edgeR]
  exact (Cert.ReferenceIdeal.RefMlp.val_main_v28_eq (F := Ideal) _ _ _ _ _ _).symm

/-- The node launch's output array, the program's result, is the reference's result. -/
theorem result_eq (c : Dev nD) (hr : ∀ i : S2x524288.Idx, 0 ≤ (eiA m c i).toInt ∧ (eiA m c i).toInt < 32768) :
    W11 m ρ c (Proc.devRef .tc main_v66)
      = Cert.ReferenceIdeal.ReadP.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W11_arr m ρ c 9).trans ((final1 (V10 m ρ) c).trans ?_)
  rw [V10_arg0, V10_v13, V10_v60, V10_v61, V10_v62, V10_v63, V10_v64, V10_arg8, V10_v65, messages_eq m ρ c hr, scatter_eq,
    nodeArr_eq_nodeR]
  exact (Cert.ReferenceIdeal.RefMlp.val_main_v89_eq (F := Ideal) _ _ _ _ _ _ _ _ _ _).symm

end Result

end Cert.Bridge

end
-- ==== Proof.lean ====
/-
  A message-passing layer over graph pairs: edge messages by a two-layer rectified perceptron of the two endpoint
  rows, summed into their source nodes, then a two-layer rectified perceptron of (node row, summed messages,
  cross-graph attention term).  The kernel program computes the two perceptrons in two tiled launches and the
  gathers, the segment sum and the cross-graph term on the host; the reference computes everything on the host.

  The precondition says every float input is finite and every entry of the edge table is a node number,
  0 ≤ index < 32768.  Outside that range the reference's gather clamps while the kernel program's gather fills the
  row with a sentinel, so the range is needed; finiteness is never used (the equalities are rearrangements of sums).

  The frames of the two kernel programs are the generated ones; the reference's frame is its run with the result
  dropped.  For the equivalence the kernel program's result array is read off its run (`KernelRun`, `KernelFold`,
  `KernelValue`) and shown to be the reference's composed term of the same arguments (`Bridge`).
-/
import proofs.«423965_j5583457485044_1_alg».proof.Defs
import proofs.«423965_j5583457485044_1_alg».proof.Proof.Gen.Kernel
import proofs.«423965_j5583457485044_1_alg».proof.Proof.Gen.Kernel.Skeleton
import proofs.«423965_j5583457485044_1_alg».proof.Proof.Gen.Kernel.Launch
import proofs.«423965_j5583457485044_1_alg».proof.Proof.Gen.Kernel.Points
import proofs.«423965_j5583457485044_1_alg».proof.Proof.Gen.Kernel.Frame
import proofs.«423965_j5583457485044_1_alg».proof.Proof.Gen.KernelIdeal
import proofs.«423965_j5583457485044_1_alg».proof.Proof.Gen.KernelIdeal.Skeleton
import proofs.«423965_j5583457485044_1_alg».proof.Proof.Gen.KernelIdeal.Launch
import proofs.«423965_j5583457485044_1_alg».proof.Proof.Gen.KernelIdeal.Points
import proofs.«423965_j5583457485044_1_alg».proof.Proof.Gen.KernelIdeal.Frame
import proofs.«423965_j5583457485044_1_alg».proof.Proof.Gen.ReferenceIdeal
import proofs.«423965_j5583457485044_1_alg».proof.Proof.Gen.Pre_finite_inputs
import proofs.«423965_j5583457485044_1_alg».proof.Proof.RefRun
import proofs.«423965_j5583457485044_1_alg».proof.Proof.RefRead
import proofs.«423965_j5583457485044_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's composed term of the (agreeing) arguments in their result arrays. -/
theorem algebraic : Cert.algebraic_KernelIdeal_ReferenceIdeal := by
  intro m ρ m' ρ' hpre hagree
  refine ⟨fun c => Cert.ReferenceIdeal.ReadP.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.RunP.run_main (F := Ideal) m ρ)
    exact Cert.Bridge.result_eq m ρ c (fun i => Cert.KernelIdeal.Take.idx_range_of_pre _ _ _ _ _ _ _ _ _ _ (hpre c) i)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v89_eq]
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
